-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v29)) (v1 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_v21) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S600000x1 : Shape := ⟨2, ![600000, 1]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000x1 : S_.BroadcastsInDim S600000x1 (![] : Fin 0 → Fin S600000x1.rank)
  reducesTo_S600000x1_S_d0_1 : S600000x1.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg8 : FVec F S128 .f32) (main_arg9 : FVec F S128x128 .f32) (main_arg10 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg5 : FVec F S128x128 .f32) (main_arg6 : FVec F S128 .f32) (main_arg7 : FVec F S256x128 .f32) (main_arg8 : FVec F S128 .f32) (main_arg9 : FVec F S128x128 .f32) (main_arg10 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg7
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : IVec S2x600000 32) (main_arg2 : FVec F S600000x1 .f32) (main_arg3 : FVec F S256x128 .f32) (main_arg4 : FVec F S128 .f32) (main_arg5 : FVec F S128x128 .f32) (main_arg6 : FVec F S128 .f32) (main_arg7 : FVec F S256x128 .f32) (main_arg8 : FVec F S128 .f32) (main_arg9 : FVec F S128x128 .f32) (main_arg10 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000x1 .f32 := Host.absf main_arg2
  let main_cst_0 : FVec F S_ .f32 := constant S_ .f32 0x7F800000#32
  let main_v5 : FVec F S600000x1 .f32 := broadcastInDim S600000x1 ![] bcast_S_S600000x1 main_cst_0
  let main_v6 : IVec S600000x1 1 := cmpf .olt main_v4 main_v5
  let main_c_1 : IVec S_ 1 := constantI S_ 1 1#1
  let main_v7 : IVec S_ 1 := (fun x v => Host.reduce IntOp.andi x v reducesTo_S600000x1_S_d0_1 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S2x600000 : Shape := ⟨2, ![2, 600000]⟩
abbrev S600000x1 : Shape := ⟨2, ![600000, 1]⟩
abbrev S256x128 : Shape := ⟨2, ![256, 128]⟩
abbrev S128 : Shape := ⟨1, ![128]⟩
abbrev S128x128 : Shape := ⟨2, ![128, 128]⟩
abbrev S1x600000 : Shape := ⟨2, ![1, 600000]⟩
abbrev S600000 : Shape := ⟨1, ![600000]⟩
abbrev S_ : Shape := ⟨0, ![]⟩
abbrev S600000x128 : Shape := ⟨2, ![600000, 128]⟩
abbrev S600000x256 : Shape := ⟨2, ![600000, 256]⟩
abbrev S1x128 : Shape := ⟨2, ![1, 128]⟩
abbrev S3000x256 : Shape := ⟨2, ![3000, 256]⟩
abbrev S3000x1 : Shape := ⟨2, ![3000, 1]⟩
abbrev S3000x128 : Shape := ⟨2, ![3000, 128]⟩
abbrev S5000x128 : Shape := ⟨2, ![5000, 128]⟩

abbrev nBuf : Space → Nat
  | .hbm => 46
  | .vmem => 21
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S600000x1, .f32⟩
  | .hbm, ⟨3, _⟩ => ⟨S256x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S1x600000, .i32⟩
  | .hbm, ⟨12, _⟩ => ⟨S600000, .i32⟩
  | .hbm, ⟨13, _⟩ => ⟨S1x600000, .i32⟩
  | .hbm, ⟨14, _⟩ => ⟨S600000, .i32⟩
  | .hbm, ⟨15, _⟩ => ⟨S_, .i32⟩
  | .hbm, ⟨16, _⟩ => ⟨S600000, .i32⟩
  | .hbm, ⟨17, _⟩ => ⟨S600000, .i1⟩
  | .hbm, ⟨18, _⟩ => ⟨S_, .i32⟩
  | .hbm, ⟨19, _⟩ => ⟨S600000, .i32⟩
  | .hbm, ⟨20, _⟩ => ⟨S600000, .i32⟩
  | .hbm, ⟨21, _⟩ => ⟨S600000, .i32⟩
  | .hbm, ⟨22, _⟩ => ⟨S600000x1, .i32⟩
  | .hbm, ⟨23, _⟩ => ⟨S600000x128, .f32⟩
  | .hbm, ⟨24, _⟩ => ⟨S_, .i32⟩
  | .hbm, ⟨25, _⟩ => ⟨S600000, .i32⟩
  | .hbm, ⟨26, _⟩ => ⟨S600000, .i1⟩
  | .hbm, ⟨27, _⟩ => ⟨S_, .i32⟩
  | .hbm, ⟨28, _⟩ => ⟨S600000, .i32⟩
  | .hbm, ⟨29, _⟩ => ⟨S600000, .i32⟩
  | .hbm, ⟨30, _⟩ => ⟨S600000, .i32⟩
  | .hbm, ⟨31, _⟩ => ⟨S600000x1, .i32⟩
  | .hbm, ⟨32, _⟩ => ⟨S600000x128, .f32⟩
  | .hbm, ⟨33, _⟩ => ⟨S600000x256, .f32⟩
  | .hbm, ⟨34, _⟩ => ⟨S1x128, .f32⟩
  | .hbm, ⟨35, _⟩ => ⟨S1x128, .f32⟩
  | .hbm, ⟨36, _⟩ => ⟨S600000x128, .f32⟩
  | .hbm, ⟨37, _⟩ => ⟨S_, .f32⟩
  | .hbm, ⟨38, _⟩ => ⟨S50000x128, .f32⟩
  | .hbm, ⟨39, _⟩ => ⟨S600000x1, .i32⟩
  | .hbm, ⟨40, _⟩ => ⟨S50000x128, .f32⟩
  | .hbm, ⟨41, _⟩ => ⟨S128x128, .f32⟩
  | .hbm, ⟨42, _⟩ => ⟨S128x128, .f32⟩
  | .hbm, ⟨43, _⟩ => ⟨S1x128, .f32⟩
  | .hbm, ⟨44, _⟩ => ⟨S1x128, .f32⟩
  | .hbm, ⟨45, _⟩ => ⟨S50000x128, .f32⟩
  | .local _ .vmem, ⟨0, _⟩ => ⟨S3000x256, .f32⟩
  | .local _ .vmem, ⟨1, _⟩ => ⟨S3000x256, .f32⟩
  | .local _ .vmem, ⟨2, _⟩ => ⟨S3000x1, .f32⟩
  | .local _ .vmem, ⟨3, _⟩ => ⟨S3000x1, .f32⟩
  | .local _ .vmem, ⟨4, _⟩ => ⟨S256x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S3000x128, .f32⟩
  | .local _ .vmem, ⟨9, _⟩ => ⟨S3000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S128x128, .f32⟩
  | .local _ .vmem, ⟨16, _⟩ => ⟨S1x128, .f32⟩
  | .local _ .vmem, ⟨17, _⟩ => ⟨S128x128, .f32⟩
  | .local _ .vmem, ⟨18, _⟩ => ⟨S1x128, .f32⟩
  | .local _ .vmem, ⟨19, _⟩ => ⟨S5000x128, .f32⟩
  | .local _ .vmem, ⟨20, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg7_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem7_1 : DmaSem sig := 20

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S3000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  concatenates_S600000x128_S600000x128_S600000x256_d1 : Shape.Concatenates [S600000x128, S600000x128] S600000x256 1
  shapeCasts_S128_S1x128 : S128.ShapeCasts S1x128
  inb_S3000x256_S3000x256_0_0 : ∀ a, (![0, 0] : Fin 2 → Nat) a + S3000x256.size a ≤ S3000x256.size a
  h_S3000x256 : 0 < S3000x256.numel
  shapeCasts_S3000x256_S3000x256 : S3000x256.ShapeCasts S3000x256
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S3000x128 : S1x128.Broadcasts S3000x128
  inb_S128x128_S128x128_0_0 : ∀ a, (![0, 0] : Fin 2 → Nat) a + S128x128.size a ≤ S128x128.size a
  h_S128x128 : 0 < S128x128.numel
  inb_S3000x1_S3000x1_0_0 : ∀ a, (![0, 0] : Fin 2 → Nat) a + S3000x1.size a ≤ S3000x1.size a
  h_S3000x1 : 0 < S3000x1.numel
  broadcasts_S3000x1_S3000x128 : S3000x1.Broadcasts S3000x128
  inb_S3000x128_S3000x128_0_0 : ∀ a, (![0, 0] : Fin 2 → Nat) a + S3000x128.size a ≤ S3000x128.size a
  h_S3000x128 : 0 < S3000x128.numel
  bcast_S_S50000x128 : S_.BroadcastsInDim S50000x128 (![] : Fin 0 → Fin S50000x128.rank)
  slices_S256x128_S128x128_0_0 : S256x128.Slices ![0, 0] S128x128
  slices_S256x128_S128x128_128_0 : S256x128.Slices ![128, 0] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  shapeCasts_S128x128_S128x128 : S128x128.ShapeCasts S128x128
  broadcasts_S1x128_S5000x128 : S1x128.Broadcasts S5000x128
  gather_S50000x128_S600000x1_S600000x128_1_0_n_n_0_1_1128_wf : GatherDims.WF S50000x128 S600000x1 S600000x128 [1] [0] [] [0] [] 1 ![1, 128]
  dot_S3000x256_S256x128_S3000x128_1_0_0_1_n_n_wf : DotDims.WF S3000x256 S256x128 S3000x128 [1] [0] [0] [1] [] []
  dot_S3000x128_S128x128_S3000x128_1_0_0_1_n_n_wf : DotDims.WF S3000x128 S128x128 S3000x128 [1] [0] [0] [1] [] []
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3000x256.size a ≤ S600000x256.size a
  hwx0_0 : ∀ i : grid0.Coords, EltTy.bits .f32 = 32 ∨ (Rect.block (s := S600000x256) S3000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3000x1.size a ≤ S600000x1.size a
  hwx0_1 : ∀ i : grid0.Coords, EltTy.bits .f32 = 32 ∨ (Rect.block (s := S600000x1) S3000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S3000x128.size a ≤ S600000x128.size a
  hwx0_6 : ∀ i : grid0.Coords, EltTy.bits .f32 = 32 ∨ (Rect.block (s := S600000x128) S3000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S50000x128.size a
  hwx1_7 : ∀ i : grid1.Coords, EltTy.bits .f32 = 32 ∨ (Rect.block (s := S50000x128) S5000x128.size (cc1_transform_7 i) (hinb1_7 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S3000x256_S256x128_S3000x128_1_0_0_1_n_n : DotDims S3000x256 S256x128 S3000x128 where
  lhsContracting := [1]
  rhsContracting := [0]
  lhsNonContracting := [0]
  rhsNonContracting := [1]
  lhsBatch := []
  rhsBatch := []
  wf := dot_S3000x256_S256x128_S3000x128_1_0_0_1_n_n_wf
def dot_S3000x128_S128x128_S3000x128_1_0_0_1_n_n : DotDims S3000x128 S128x128 S3000x128 where
  lhsContracting := [1]
  rhsContracting := [0]
  lhsNonContracting := [0]
  rhsNonContracting := [1]
  lhsBatch := []
  rhsBatch := []
  wf := dot_S3000x128_S128x128_S3000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v18) S3000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S3000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S3000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v28) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v29) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S600000x1 : Shape := ⟨2, ![600000, 1]⟩
abbrev S256x128 : Shape := ⟨2, ![256, 128]⟩
abbrev S128 : Shape := ⟨1, ![128]⟩
abbrev S128x128 : Shape := ⟨2, ![128, 128]⟩
abbrev S1x600000 : Shape := ⟨2, ![1, 600000]⟩
abbrev S600000 : Shape := ⟨1, ![600000]⟩
abbrev S_ : Shape := ⟨0, ![]⟩
abbrev S600000x128 : Shape := ⟨2, ![600000, 128]⟩
abbrev S600000x256 : Shape := ⟨2, ![600000, 256]⟩
abbrev S1x128 : Shape := ⟨2, ![1, 128]⟩
abbrev S50000x256 : Shape := ⟨2, ![50000, 256]⟩

abbrev nBuf : Space → Nat
  | .hbm => 67
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S600000x1, .f32⟩
  | .hbm, ⟨3, _⟩ => ⟨S256x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S1x600000, .i32⟩
  | .hbm, ⟨12, _⟩ => ⟨S600000, .i32⟩
  | .hbm, ⟨13, _⟩ => ⟨S1x600000, .i32⟩
  | .hbm, ⟨14, _⟩ => ⟨S600000, .i32⟩
  | .hbm, ⟨15, _⟩ => ⟨S_, .i32⟩
  | .hbm, ⟨16, _⟩ => ⟨S600000, .i32⟩
  | .hbm, ⟨17, _⟩ => ⟨S600000, .i1⟩
  | .hbm, ⟨18, _⟩ => ⟨S_, .i32⟩
  | .hbm, ⟨19, _⟩ => ⟨S600000, .i32⟩
  | .hbm, ⟨20, _⟩ => ⟨S600000, .i32⟩
  | .hbm, ⟨21, _⟩ => ⟨S600000, .i32⟩
  | .hbm, ⟨22, _⟩ => ⟨S600000x1, .i32⟩
  | .hbm, ⟨23, _⟩ => ⟨S600000x128, .f32⟩
  | .hbm, ⟨24, _⟩ => ⟨S_, .i32⟩
  | .hbm, ⟨25, _⟩ => ⟨S600000, .i32⟩
  | .hbm, ⟨26, _⟩ => ⟨S600000, .i1⟩
  | .hbm, ⟨27, _⟩ => ⟨S_, .i32⟩
  | .hbm, ⟨28, _⟩ => ⟨S600000, .i32⟩
  | .hbm, ⟨29, _⟩ => ⟨S600000, .i32⟩
  | .hbm, ⟨30, _⟩ => ⟨S600000, .i32⟩
  | .hbm, ⟨31, _⟩ => ⟨S600000x1, .i32⟩
  | .hbm, ⟨32, _⟩ => ⟨S600000x128, .f32⟩
  | .hbm, ⟨33, _⟩ => ⟨S600000x256, .f32⟩
  | .hbm, ⟨34, _⟩ => ⟨S600000x128, .f32⟩
  | .hbm, ⟨35, _⟩ => ⟨S1x128, .f32⟩
  | .hbm, ⟨36, _⟩ => ⟨S600000x128, .f32⟩
  | .hbm, ⟨37, _⟩ => ⟨S600000x128, .f32⟩
  | .hbm, ⟨38, _⟩ => ⟨S_, .f32⟩
  | .hbm, ⟨39, _⟩ => ⟨S600000x128, .f32⟩
  | .hbm, ⟨40, _⟩ => ⟨S600000x128, .f32⟩
  | .hbm, ⟨41, _⟩ => ⟨S600000x128, .f32⟩
  | .hbm, ⟨42, _⟩ => ⟨S1x128, .f32⟩
  | .hbm, ⟨43, _⟩ => ⟨S600000x128, .f32⟩
  | .hbm, ⟨44, _⟩ => ⟨S600000x128, .f32⟩
  | .hbm, ⟨45, _⟩ => ⟨S_, .f32⟩
  | .hbm, ⟨46, _⟩ => ⟨S600000x128, .f32⟩
  | .hbm, ⟨47, _⟩ => ⟨S600000x128, .f32⟩
  | .hbm, ⟨48, _⟩ => ⟨S600000x128, .f32⟩
  | .hbm, ⟨49, _⟩ => ⟨S600000x128, .f32⟩
  | .hbm, ⟨50, _⟩ => ⟨S_, .f32⟩
  | .hbm, ⟨51, _⟩ => ⟨S50000x128, .f32⟩
  | .hbm, ⟨52, _⟩ => ⟨S600000x1, .i32⟩
  | .hbm, ⟨53, _⟩ => ⟨S50000x128, .f32⟩
  | .hbm, ⟨54, _⟩ => ⟨S50000x256, .f32⟩
  | .hbm, ⟨55, _⟩ => ⟨S50000x128, .f32⟩
  | .hbm, ⟨56, _⟩ => ⟨S1x128, .f32⟩
  | .hbm, ⟨57, _⟩ => ⟨S50000x128, .f32⟩
  | .hbm, ⟨58, _⟩ => ⟨S50000x128, .f32⟩
  | .hbm, ⟨59, _⟩ => ⟨S_, .f32⟩
  | .hbm, ⟨60, _⟩ => ⟨S50000x128, .f32⟩
  | .hbm, ⟨61, _⟩ => ⟨S50000x128, .f32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_call0_cst : Ref sig .tc := ⟨.hbm, 38, rfl⟩
abbrev main_call0_v0 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_call1_cst : Ref sig .tc := ⟨.hbm, 45, rfl⟩
abbrev main_call1_v0 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_call2_cst : Ref sig .tc := ⟨.hbm, 59, rfl⟩
abbrev main_call2_v0 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  concatenates_S600000x128_S600000x128_S600000x256_d1 : Shape.Concatenates [S600000x128, S600000x128] S600000x256 1
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S_S600000x128 : S_.BroadcastsInDim S600000x128 (![] : Fin 0 → Fin S600000x128.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  gather_S50000x128_S600000x1_S600000x128_1_0_n_n_0_1_1128_wf : GatherDims.WF S50000x128 S600000x1 S600000x128 [1] [0] [] [0] [] 1 ![1, 128]
  dot_S600000x256_S256x128_S600000x128_1_0_0_1_n_n_wf : DotDims.WF S600000x256 S256x128 S600000x128 [1] [0] [0] [1] [] []
  dot_S600000x128_S128x128_S600000x128_1_0_0_1_n_n_wf : DotDims.WF S600000x128 S128x128 S600000x128 [1] [0] [0] [1] [] []
  scatter_S50000x128_S600000x1_S600000x128_1_0_0_1_wf : ScatterDims.WF S50000x128 S600000x1 S600000x128 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S600000x256_S256x128_S600000x128_1_0_0_1_n_n : DotDims S600000x256 S256x128 S600000x128 where
  lhsContracting := [1]
  rhsContracting := [0]
  lhsNonContracting := [0]
  rhsNonContracting := [1]
  lhsBatch := []
  rhsBatch := []
  wf := dot_S600000x256_S256x128_S600000x128_1_0_0_1_n_n_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/-
  The mathematics both programs compute, as functions of arrays read index by index on the extended reals.

  An edge's feature is a two-layer perceptron of the concatenated endpoint rows, each layer followed by max(·, 0),
  times the edge's mask. A node's output is a two-layer perceptron (max(·, 0) after the first layer only) whose first
  layer acts on the node's own row and on its aggregated row through the upper and the lower half of one weight
  matrix, plus the node's own row. Both are stated for any number of rows, so a block of rows and the whole array are
  instances of the same definition. A sum over 256 terms is the sum of its first 128 and its last 128 terms.
-/
import Idealize.ShloMosaic.Lib.ValueIdx
import Idealize.ShloMosaic.PureOps.Ideal.Laws

noncomputable section

open scoped BigOperators

namespace Cert.Spec

open Idealize.ShloMosaic Idealize.ShloMosaic.ValueIdx

/-- A matrix of extended reals, read at an index of the literal shape [a, b]. -/
abbrev Mat (a b : ℕ) : Type := (⟨2, ![a, b]⟩ : Shape).Idx → EReal

/-- One dense layer's value at output feature `k`: the row times column `k` of the weights, plus the bias. -/
def dense {K H : ℕ} (row : Fin K → EReal) (w : Mat K H) (b : Fin H → EReal) (k : Fin H) : EReal :=
  ∑ k' : Fin K, row k' * w (ix2 k' k) + b k

/-- The edge features: max(·, 0) after each of two dense layers of the row, times the row's mask. -/
def edgeFeat {R : ℕ} (ein : Mat R 256) (mask : Mat R 1) (w1 : Mat 256 128) (b1 : Fin 128 → EReal) (w2 : Mat 128 128)
    (b2 : Fin 128 → EReal) : Mat R 128 := fun i =>
  max (dense (fun k => max (dense (fun k' => ein (ix2 (i 0) k')) w1 b1 k) 0) w2 b2 (i 1)) 0 * mask (ix2 (i 0) (0 : Fin 1))

/-- The first node layer at hidden feature `k`: the node's row through `wx`, its aggregate through `wa`, the bias. -/
def nodeHidden {R : ℕ} (x agg : Mat R 128) (wx wa : Mat 128 128) (b1 : Fin 128 → EReal) (r : Fin R) (k : Fin 128) : EReal :=
  (∑ k' : Fin 128, x (ix2 r k') * wx (ix2 k' k) + ∑ k' : Fin 128, agg (ix2 r k') * wa (ix2 k' k)) + b1 k

/-- The node outputs: the second dense layer of max(first layer, 0), plus the node's own row. -/
def nodeOut {R : ℕ} (x agg : Mat R 128) (wx wa : Mat 128 128) (b1 : Fin 128 → EReal) (w2 : Mat 128 128)
    (b2 : Fin 128 → EReal) : Mat R 128 := fun i =>
  dense (fun k => max (nodeHidden x agg wx wa b1 (i 0) k) 0) w2 b2 (i 1) + x i

/-- The upper 128 rows of a [256, 128] matrix. -/
def topRows (w : Mat 256 128) : Mat 128 128 := fun i => w (ix2 (Fin.castAdd 128 (i 0) : Fin (128 + 128)) (i 1))

/-- The lower 128 rows of a [256, 128] matrix. -/
def botRows (w : Mat 256 128) : Mat 128 128 := fun i => w (ix2 (Fin.natAdd 128 (i 0) : Fin (128 + 128)) (i 1))

/-- A sum over 256 terms is the sum over the first 128 plus the sum over the last 128. -/
theorem sum_halves (f : Fin 256 → EReal) :
    ∑ k : Fin 256, f k = ∑ k : Fin 128, f (Fin.castAdd 128 k : Fin (128 + 128)) + ∑ k : Fin 128, f (Fin.natAdd 128 k : Fin (128 + 128)) :=
  Fin.sum_univ_add (M := EReal) (a := 128) (b := 128) f

/-- The same two functions of a row at equal rows: the dense layer only sees the row. -/
theorem dense_congr {K H : ℕ} {row row' : Fin K → EReal} (h : ∀ k', row k' = row' k') (w : Mat K H) (b : Fin H → EReal)
    (k : Fin H) : dense row w b k = dense row' w b k := by
  unfold dense; rw [show row = row' from funext h]

/-- An edge feature depends only on its own row of the inputs: equal rows, masks, weights and biases give equal
    features, whatever the two row counts. -/
theorem edgeFeat_row {R R' : ℕ} (ein : Mat R 256) (ein' : Mat R' 256) (mask : Mat R 1) (mask' : Mat R' 1)
    (w1 w1' : Mat 256 128) (b1 b1' : Fin 128 → EReal) (w2 w2' : Mat 128 128) (b2 b2' : Fin 128 → EReal)
    (r : Fin R) (r' : Fin R') (q : Fin 128)
    (hein : ∀ k, ein (ix2 r k) = ein' (ix2 r' k)) (hmask : mask (ix2 r (0 : Fin 1)) = mask' (ix2 r' (0 : Fin 1)))
    (hw1 : w1 = w1') (hb1 : ∀ k, b1 k = b1' k) (hw2 : w2 = w2') (hb2 : ∀ k, b2 k = b2' k) :
    edgeFeat ein mask w1 b1 w2 b2 (ix2 r q) = edgeFeat ein' mask' w1' b1' w2' b2' (ix2 r' q) := by
  subst hw1 hw2
  obtain rfl : b1 = b1' := funext hb1
  obtain rfl : b2 = b2' := funext hb2
  show max (dense (fun k => max (dense (fun k' => ein (ix2 r k')) w1 b1 k) 0) w2 b2 q) 0 * mask (ix2 r (0 : Fin 1))
    = max (dense (fun k => max (dense (fun k' => ein' (ix2 r' k')) w1 b1 k) 0) w2 b2 q) 0 * mask' (ix2 r' (0 : Fin 1))
  rw [hmask, show (fun k' => ein (ix2 r k')) = fun k' => ein' (ix2 r' k') from funext hein]

/-- A node output depends only on its own row of the node features and of the aggregate. -/
theorem nodeOut_row {R R' : ℕ} (x agg : Mat R 128) (x' agg' : Mat R' 128) (wx wx' wa wa' : Mat 128 128)
    (b1 b1' : Fin 128 → EReal) (w2 w2' : Mat 128 128) (b2 b2' : Fin 128 → EReal) (r : Fin R) (r' : Fin R') (q : Fin 128)
    (hx : ∀ k, x (ix2 r k) = x' (ix2 r' k)) (hagg : ∀ k, agg (ix2 r k) = agg' (ix2 r' k))
    (hwx : wx = wx') (hwa : wa = wa') (hb1 : ∀ k, b1 k = b1' k) (hw2 : w2 = w2') (hb2 : ∀ k, b2 k = b2' k) :
    nodeOut x agg wx wa b1 w2 b2 (ix2 r q) = nodeOut x' agg' wx' wa' b1' w2' b2' (ix2 r' q) := by
  subst hwx hwa hw2
  obtain rfl : b1 = b1' := funext hb1
  obtain rfl : b2 = b2' := funext hb2
  show dense (fun k => max (nodeHidden x agg wx wa b1 r k) 0) w2 b2 q + x (ix2 r q)
    = dense (fun k => max (nodeHidden x' agg' wx wa b1 r' k) 0) w2 b2 q + x' (ix2 r' q)
  have hh : (fun k => max (nodeHidden x agg wx wa b1 r k) 0) = fun k => max (nodeHidden x' agg' wx wa b1 r' k) 0 := by
    funext k
    unfold nodeHidden
    rw [show (fun k' => x (ix2 r k') * wx (ix2 k' k)) = fun k' => x' (ix2 r' k') * wx (ix2 k' k) from funext fun k' => by rw [hx k'],
      show (fun k' => agg (ix2 r k') * wa (ix2 k' k)) = fun k' => agg' (ix2 r' k') * wa (ix2 k' k) from funext fun k' => by rw [hagg k']]
  rw [hh, hx q]

end Cert.Spec

end
-- ==== Proof.LibKeepdims.lean ====
/-
  Keepdims layouts and last-axis reductions of a matrix, read at indices written by coordinates.

  A sum or maximum taken with the reduced axis kept prints as a reduction to a vector [a], a cast of that vector to a
  column [a, 1], and a broadcast of the column across [a, b]. Read at (p, c), the column is the vector at p and the
  broadcast is the column at p; a vector [n] viewed as [1, 1, n] keeps its entries. A reduction of a matrix [a, b]
  over its last axis reads, at row p, the entries (p, k) for every k: a float sum is their sum, a float maximum from
  −∞ is their maximum folded from −∞. The words of −∞ and of 1.0 denote −∞ and 1.
  Every statement is generic in the extents.
-/
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- A vector [a] cast to a column [a, 1] reads, at (p, u), the vector at p. -/
theorem cast_vec_col {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column [a, 1] broadcast to [a, b] reads, at (p, c), the column at p. -/
theorem bcast_col {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [n] cast to [1, 1, n] reads, at (u, u', j), the vector at j. -/
theorem cast_vec_11n {n : ℕ} (x : (⟨1, ![n]⟩ : Shape).Idx → α) (h : (⟨1, ![n]⟩ : Shape).ShapeCasts ⟨3, ![1, 1, n]⟩)
    (u u' : Fin 1) (j : Fin n) : shapeCast ⟨3, ![1, 1, n]⟩ x h (ix3 u u' j) = x (ix1 j) :=
  shapeCast_apply x h _ _ (by
    have hu : u.val = 0 := by omega
    have hu' : u'.val = 0 := by omega
    rw [Shape.rowMajor_val_three, Shape.rowMajor_val_one]
    show j.val = (u.val * 1 + u'.val) * n + j.val
    rw [hu, hu']
    simp)

/-- Over row p of a matrix, the index a last-axis reduction inserts coordinate k into is (p, k). -/
theorem lift_row {a b : ℕ} (h : (⟨2, ![a, b]⟩ : Shape).Reduces [1] ⟨1, ![a]⟩) (p : Fin a) (k : Fin b) :
    h.lift (ix1 p) k = ix2 p k :=
  funext fun c => Fin.ext (match c with | ⟨0, _⟩ => rfl | ⟨1, _⟩ => rfl)

/-- A float sum of a matrix over its last axis, at row p, is the sum of that row. -/
theorem sum_row {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ src 0x00000000#32 h hφ hacc (ix1 p) = ∑ k : Fin b, src (ix2 p k) :=
  (Ideal.multiReduction_add_single src _ h hφ hacc (ix1 p)).trans
    (Finset.sum_congr rfl fun k _ => congrArg src (lift_row h p k))

/-- The word of f32's −∞ denotes −∞. -/
theorem ofBits_neg_inf : Ideal.ofBits .f32 0xFF800000#32 = (⊥ : EReal) := by simp [Ideal.ofBits, Ideal.ieee]

/-- The word of f32's 1.0 denotes 1. -/
theorem ofBits_one_f32 : Ideal.ofBits .f32 0x3F800000#32 = (1 : EReal) :=
  IdealRules.sign_bit.ideal_onePat .f32

/-- The word of bf16's 1.0 denotes 1. -/
theorem ofBits_one_bf16 : Ideal.ofBits .bf16 0x3F80#16 = (1 : EReal) :=
  IdealRules.sign_bit.ideal_onePat .bf16

/-- A float maximum of a matrix over its last axis from −∞, at row p, is the maximum of that row from −∞. -/
theorem max_row {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = FKind.maximumf.neutral .f32 hφ) (p : Fin a) :
    multiReduction .maximumf [1] ⟨1, ![a]⟩ src 0xFF800000#32 h hφ hacc (ix1 p)
      = (Finset.univ : Finset (Fin b)).fold max ⊥ (fun k => src (ix2 p k)) := by
  refine (Ideal.multiReduction_maximumf_single src _ h hφ hacc (ix1 p)).trans ?_
  show (Finset.univ : Finset (Fin b)).fold max (Ideal.ofBits .f32 0xFF800000#32) (src ∘ h.lift (ix1 p)) = _
  rw [ofBits_neg_inf]
  exact congrArg (fun g : Fin b → EReal => (Finset.univ : Finset (Fin b)).fold max ⊥ g)
    (funext fun k => congrArg src (lift_row h p k))

end Cert.LibKeepdims

end
-- ==== Proof.EdgePayload.lean ====
/-
  The edge kernel's stored value is the specification's edge features.

  The kernel computes, from a block of 3000 concatenated endpoint rows, two dense layers each followed by the maximum
  with zero, and multiplies by the block's mask column. A product into the zero accumulator, read at (p, q), is the sum
  over the contraction coordinate k of the left operand at (p, k) times the right at (k, q); the narrowing format
  change is the identity on the extended reals; the bias row [1, 128] broadcast down the rows reads the bias at q, the
  mask column [3000, 1] broadcast across the columns reads the mask at p, and the zero word denotes 0. So each layer at
  (p, q) is max(dense(row p), 0), and the second layer's row is the first layer's row.
-/
import proofs.«139535_j86620900426032_1_alg».proof.Proof.Gen.KernelIdeal.Skeleton
import proofs.«139535_j86620900426032_1_alg».proof.Proof.Spec
import proofs.«139535_j86620900426032_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.EdgePayload

open Cert.KernelIdeal Cert.KernelIdeal.Gen Idealize.ShloMosaic Idealize.ShloMosaic.ValueIdx

/-! ## The product [3000, 256] × [256, 128] read at an index -/

theorem lhs1_0 (i : S3000x128.Idx) (q : dot_S3000x256_S256x128_S3000x128_1_0_0_1_n_n.contr.Idx) :
    (dot_S3000x256_S256x128_S3000x128_1_0_0_1_n_n.lhsIdx i q 0).val = (i 0).val := by
  unfold DotDims.lhsIdx
  rw [dif_neg (show ¬(0 : Fin S3000x256.rank) ∈ dot_S3000x256_S256x128_S3000x128_1_0_0_1_n_n.lhsBatch by decide), dif_pos (show (0 : Fin S3000x256.rank) ∈ dot_S3000x256_S256x128_S3000x128_1_0_0_1_n_n.lhsNonContracting by decide)]
  rfl
theorem lhs1_1 (i : S3000x128.Idx) (q : dot_S3000x256_S256x128_S3000x128_1_0_0_1_n_n.contr.Idx) :
    (dot_S3000x256_S256x128_S3000x128_1_0_0_1_n_n.lhsIdx i q 1).val = (q ⟨0, by decide⟩).val :=
  dot_S3000x256_S256x128_S3000x128_1_0_0_1_n_n.lhsIdx_val_of_single rfl i q
theorem rhs1_0 (i : S3000x128.Idx) (q : dot_S3000x256_S256x128_S3000x128_1_0_0_1_n_n.contr.Idx) :
    (dot_S3000x256_S256x128_S3000x128_1_0_0_1_n_n.rhsIdx i q 0).val = (q ⟨0, by decide⟩).val :=
  dot_S3000x256_S256x128_S3000x128_1_0_0_1_n_n.rhsIdx_val_of_single rfl i q
theorem rhs1_1 (i : S3000x128.Idx) (q : dot_S3000x256_S256x128_S3000x128_1_0_0_1_n_n.contr.Idx) :
    (dot_S3000x256_S256x128_S3000x128_1_0_0_1_n_n.rhsIdx i q 1).val = (i 1).val := by
  unfold DotDims.rhsIdx
  rw [dif_neg (show ¬(1 : Fin S256x128.rank) ∈ dot_S3000x256_S256x128_S3000x128_1_0_0_1_n_n.rhsBatch by decide), dif_pos (show (1 : Fin S256x128.rank) ∈ dot_S3000x256_S256x128_S3000x128_1_0_0_1_n_n.rhsNonContracting by decide)]
  rfl

/-- Into the zero accumulator the product at (p, q) is the sum over k of the left operand at (p, k) times the right at (k, q). -/
theorem matmul1_apply (lhs : FVec Ideal S3000x256 .bf16) (rhs : FVec Ideal S256x128 .bf16) (p : Fin 3000) (q : Fin 128) :
    matmul dot_S3000x256_S256x128_S3000x128_1_0_0_1_n_n none lhs rhs (constant (F := Ideal) S3000x128 .f32 0x00000000#32) (ix2 p q)
      = ∑ k : Fin 256, lhs (ix2 p k) * rhs (ix2 k q) := by
  simp only [matmul]
  rw [Ideal.matmul_constant_zero_apply, ← Equiv.sum_comp (ValueIdx.contrEquiv1 dot_S3000x256_S256x128_S3000x128_1_0_0_1_n_n 256 rfl rfl).symm]
  refine Finset.sum_congr rfl fun k _ => ?_
  have hk := ValueIdx.contrEquiv1_symm_val dot_S3000x256_S256x128_S3000x128_1_0_0_1_n_n 256 rfl rfl k
  have el : dot_S3000x256_S256x128_S3000x128_1_0_0_1_n_n.lhsIdx (ix2 p q) ((ValueIdx.contrEquiv1 dot_S3000x256_S256x128_S3000x128_1_0_0_1_n_n 256 rfl rfl).symm k) = ix2 p k := funext fun a => Fin.ext (by
    match a with
    | ⟨0, _⟩ => exact lhs1_0 _ _
    | ⟨1, _⟩ => exact (lhs1_1 _ _).trans hk)
  have er : dot_S3000x256_S256x128_S3000x128_1_0_0_1_n_n.rhsIdx (ix2 p q) ((ValueIdx.contrEquiv1 dot_S3000x256_S256x128_S3000x128_1_0_0_1_n_n 256 rfl rfl).symm k) = ix2 k q := funext fun a => Fin.ext (by
    match a with
    | ⟨0, _⟩ => exact (rhs1_0 _ _).trans hk
    | ⟨1, _⟩ => exact rhs1_1 _ _)
  rw [el, er]

/-! ## The product [3000, 128] × [128, 128] read at an index -/

theorem lhs2_0 (i : S3000x128.Idx) (q : dot_S3000x128_S128x128_S3000x128_1_0_0_1_n_n.contr.Idx) :
    (dot_S3000x128_S128x128_S3000x128_1_0_0_1_n_n.lhsIdx i q 0).val = (i 0).val := by
  unfold DotDims.lhsIdx
  rw [dif_neg (show ¬(0 : Fin S3000x128.rank) ∈ dot_S3000x128_S128x128_S3000x128_1_0_0_1_n_n.lhsBatch by decide), dif_pos (show (0 : Fin S3000x128.rank) ∈ dot_S3000x128_S128x128_S3000x128_1_0_0_1_n_n.lhsNonContracting by decide)]
  rfl
theorem lhs2_1 (i : S3000x128.Idx) (q : dot_S3000x128_S128x128_S3000x128_1_0_0_1_n_n.contr.Idx) :
    (dot_S3000x128_S128x128_S3000x128_1_0_0_1_n_n.lhsIdx i q 1).val = (q ⟨0, by decide⟩).val :=
  dot_S3000x128_S128x128_S3000x128_1_0_0_1_n_n.lhsIdx_val_of_single rfl i q
theorem rhs2_0 (i : S3000x128.Idx) (q : dot_S3000x128_S128x128_S3000x128_1_0_0_1_n_n.contr.Idx) :
    (dot_S3000x128_S128x128_S3000x128_1_0_0_1_n_n.rhsIdx i q 0).val = (q ⟨0, by decide⟩).val :=
  dot_S3000x128_S128x128_S3000x128_1_0_0_1_n_n.rhsIdx_val_of_single rfl i q
theorem rhs2_1 (i : S3000x128.Idx) (q : dot_S3000x128_S128x128_S3000x128_1_0_0_1_n_n.contr.Idx) :
    (dot_S3000x128_S128x128_S3000x128_1_0_0_1_n_n.rhsIdx i q 1).val = (i 1).val := by
  unfold DotDims.rhsIdx
  rw [dif_neg (show ¬(1 : Fin S128x128.rank) ∈ dot_S3000x128_S128x128_S3000x128_1_0_0_1_n_n.rhsBatch by decide), dif_pos (show (1 : Fin S128x128.rank) ∈ dot_S3000x128_S128x128_S3000x128_1_0_0_1_n_n.rhsNonContracting by decide)]
  rfl

/-- Into the zero accumulator the product at (p, q) is the sum over k of the left operand at (p, k) times the right at (k, q). -/
theorem matmul2_apply (lhs : FVec Ideal S3000x128 .bf16) (rhs : FVec Ideal S128x128 .bf16) (p : Fin 3000) (q : Fin 128) :
    matmul dot_S3000x128_S128x128_S3000x128_1_0_0_1_n_n none lhs rhs (constant (F := Ideal) S3000x128 .f32 0x00000000#32) (ix2 p q)
      = ∑ k : Fin 128, lhs (ix2 p k) * rhs (ix2 k q) := by
  simp only [matmul]
  rw [Ideal.matmul_constant_zero_apply, ← Equiv.sum_comp (ValueIdx.contrEquiv1 dot_S3000x128_S128x128_S3000x128_1_0_0_1_n_n 128 rfl rfl).symm]
  refine Finset.sum_congr rfl fun k _ => ?_
  have hk := ValueIdx.contrEquiv1_symm_val dot_S3000x128_S128x128_S3000x128_1_0_0_1_n_n 128 rfl rfl k
  have el : dot_S3000x128_S128x128_S3000x128_1_0_0_1_n_n.lhsIdx (ix2 p q) ((ValueIdx.contrEquiv1 dot_S3000x128_S128x128_S3000x128_1_0_0_1_n_n 128 rfl rfl).symm k) = ix2 p k := funext fun a => Fin.ext (by
    match a with
    | ⟨0, _⟩ => exact lhs2_0 _ _
    | ⟨1, _⟩ => exact (lhs2_1 _ _).trans hk)
  have er : dot_S3000x128_S128x128_S3000x128_1_0_0_1_n_n.rhsIdx (ix2 p q) ((ValueIdx.contrEquiv1 dot_S3000x128_S128x128_S3000x128_1_0_0_1_n_n 128 rfl rfl).symm k) = ix2 k q := funext fun a => Fin.ext (by
    match a with
    | ⟨0, _⟩ => exact (rhs2_0 _ _).trans hk
    | ⟨1, _⟩ => exact rhs2_1 _ _)
  rw [el, er]

/-! ## The two layers and the payload -/

/-- One layer of the kernel at (p, q): the product into the zero accumulator, plus the bias row broadcast down the rows, then
    the maximum with the zero splat, is max(dense, 0) of row p of the left operand. -/
theorem layer1_apply (x : FVec Ideal S3000x256 .bf16) (w : Vec Ideal S256x128 .f32) (b : Vec Ideal S1x128 .f32) (p : Fin 3000) (q : Fin 128) :
    maximumf (addf (matmul dot_S3000x256_S256x128_S3000x128_1_0_0_1_n_n none x (truncf .bf16 w bitsLt_bf16_f32) (constant (F := Ideal) S3000x128 .f32 0x00000000#32))
        (broadcastTo S3000x128 (shapeCast S1x128 b shapeCasts_S1x128_S1x128) broadcasts_S1x128_S3000x128))
      (broadcast S3000x128 (Scalar.ofBits (F := Ideal) .f32 0x00000000#32)) (ix2 p q)
      = max (Cert.Spec.dense (fun k' => x (ix2 p k')) w (fun k => b (ix2 (0 : Fin 1) k)) q) 0 := by
  show max (matmul dot_S3000x256_S256x128_S3000x128_1_0_0_1_n_n none x (truncf .bf16 w bitsLt_bf16_f32) (constant (F := Ideal) S3000x128 .f32 0x00000000#32) (ix2 p q)
      + broadcastTo S3000x128 (shapeCast S1x128 b shapeCasts_S1x128_S1x128) broadcasts_S1x128_S3000x128 (ix2 p q))
      (Ideal.ofBits .f32 0x00000000#32) = _
  rw [matmul1_apply, shapeCast_self, broadcastTo_1b_ab_apply, Ideal.ofBits_zero_f32]
  rfl

/-- One layer of the kernel at (p, q): the product into the zero accumulator, plus the bias row broadcast down the rows, then
    the maximum with the zero splat, is max(dense, 0) of row p of the left operand. -/
theorem layer2_apply (x : FVec Ideal S3000x128 .bf16) (w : Vec Ideal S128x128 .f32) (b : Vec Ideal S1x128 .f32) (p : Fin 3000) (q : Fin 128) :
    maximumf (addf (matmul dot_S3000x128_S128x128_S3000x128_1_0_0_1_n_n none x (truncf .bf16 w bitsLt_bf16_f32) (constant (F := Ideal) S3000x128 .f32 0x00000000#32))
        (broadcastTo S3000x128 (shapeCast S1x128 b shapeCasts_S1x128_S1x128) broadcasts_S1x128_S3000x128))
      (broadcast S3000x128 (Scalar.ofBits (F := Ideal) .f32 0x00000000#32)) (ix2 p q)
      = max (Cert.Spec.dense (fun k' => x (ix2 p k')) w (fun k => b (ix2 (0 : Fin 1) k)) q) 0 := by
  show max (matmul dot_S3000x128_S128x128_S3000x128_1_0_0_1_n_n none x (truncf .bf16 w bitsLt_bf16_f32) (constant (F := Ideal) S3000x128 .f32 0x00000000#32) (ix2 p q)
      + broadcastTo S3000x128 (shapeCast S1x128 b shapeCasts_S1x128_S1x128) broadcasts_S1x128_S3000x128 (ix2 p q))
      (Ideal.ofBits .f32 0x00000000#32) = _
  rw [matmul2_apply, shapeCast_self, broadcastTo_1b_ab_apply, Ideal.ofBits_zero_f32]
  rfl

/-- The edge kernel's stored value is the specification's edge features of its six loaded blocks. -/
theorem pay0_eq (v0 : Vec Ideal S3000x256 .f32) (v3 : Vec Ideal S256x128 .f32) (v6 : Vec Ideal S1x128 .f32) (v13 : Vec Ideal S128x128 .f32) (v16 : Vec Ideal S1x128 .f32) (v22 : Vec Ideal S3000x1 .f32) :
    k0_pay1 (F := Ideal) v0 v3 v6 v13 v16 v22
      = Cert.Spec.edgeFeat (R := 3000) v0 v22 v3 (fun k => v6 (ix2 (0 : Fin 1) k)) v13 (fun k => v16 (ix2 (0 : Fin 1) k)) := by
  funext j
  obtain ⟨p, q, rfl⟩ : ∃ (p : Fin 3000) (q : Fin 128), j = ix2 p q := ⟨j 0, j 1, eq_ix2 j⟩
  unfold k0_pay1
  -- the product of the second layer and the mask column, each read at (p, q)
  refine (mulf_apply _ _ (ix2 p q)).trans ?_
  rw [layer2_apply, Cert.LibKeepdims.bcast_col]
  -- the second layer's left operand at (p, k) is the first layer at (p, k)
  refine congrArg (fun r : Fin 128 → EReal => max (Cert.Spec.dense r v13 (fun k => v16 (ix2 (0 : Fin 1) k)) q) 0 * v22 (ix2 p (0 : Fin 1)))
    (funext fun k => ?_)
  refine (layer1_apply _ v3 v6 p k).trans ?_
  rw [shapeCast_self]
  rfl

end Cert.EdgePayload

end
-- ==== Proof.NodePayload.lean ====
/-
  The node kernel's arithmetic read as the specification.

  The node kernel computes, from the node rows x, the aggregated rows agg, two [128, 128] weight matrices wx and wa, a
  bias row b1, a second weight matrix w2 and a second bias row b2, the array

      out[p, q] = ( ∑ k, max( ∑ k', x[p, k'] wx[k', k] + ∑ k', agg[p, k'] wa[k', k] + b1[k], 0 ) * w2[k, q] ) + b2[q] + x[p, q].

  On the extended reals a format change is the identity, a matrix product into the zero accumulator is the plain sum
  over the contracted axis, a row broadcast [1, 128] → [5000, 128] reads row 0, and the zero word denotes 0; so the
  kernel's one pure term, read at the index (p, q), is that expression, which is the specification's nodeOut.
-/
import proofs.«139535_j86620900426032_1_alg».proof.Proof.Gen.KernelIdeal.Skeleton
import proofs.«139535_j86620900426032_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.NodePayload

open Cert.KernelIdeal Cert.KernelIdeal.Gen Idealize.ShloMosaic Idealize.ShloMosaic.ValueIdx

/-! ## The matrix product [5000, 128] × [128, 128] read at an index -/

/-- The left operand's row coordinate at a result index is the result's row. -/
theorem lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

/-- The left operand's column coordinate is the contraction index. -/
theorem lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q

/-- The right operand's row coordinate is the contraction index. -/
theorem rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q

/-- The right operand's column coordinate at a result index is the result's column. -/
theorem rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product into the zero accumulator at (p, q): the sum over k of lhs[p, k] * rhs[k, q]. -/
theorem matmul_zero_ix (lhs : FVec Ideal S5000x128 .bf16) (rhs : FVec Ideal S128x128 .bf16) (p : Fin 5000) (q : Fin 128) :
    matmul dot_S5000x128_S128x128_S5000x128_1_0_0_1_n_n none lhs rhs (constant (F := Ideal) S5000x128 .f32 0x00000000#32) (ix2 p q)
      = ∑ k : Fin 128, lhs (ix2 p k) * rhs (ix2 k q) := by
  refine (Ideal.matmul_constant_zero_apply dot_S5000x128_S128x128_S5000x128_1_0_0_1_n_n none lhs rhs (ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_0 _ _
    | ⟨1, _⟩ => exact (lhs_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_0 _ _).trans hk
    | ⟨1, _⟩ => exact rhs_1 _ _)
  rw [el, er]

/-! ## The payload -/

/-- The node kernel's stored value is the specification's node output of the loaded rows, weights and bias rows. -/
theorem pay1_eq (v0 v2 : Vec Ideal S5000x128 .f32) (v5 v8 : Vec Ideal S128x128 .f32) (v14 : Vec Ideal S1x128 .f32) (v21 : Vec Ideal S128x128 .f32) (v24 : Vec Ideal S1x128 .f32) :
    k1_pay1 (F := Ideal) v0 v2 v5 v8 v14 v21 v24 v0
      = Cert.Spec.nodeOut (R := 5000) v0 v2 v5 v8 (fun k => v14 (ix2 (0 : Fin 1) k)) v21 (fun k => v24 (ix2 (0 : Fin 1) k)) := by
  funext j
  obtain ⟨p, q, rfl⟩ : ∃ (p : Fin 5000) (q : Fin 128), j = ix2 p q := ⟨j 0, j 1, eq_ix2 j⟩
  unfold k1_pay1
  simp only [shapeCast_self, addf_apply, maximumf_apply, truncf_apply, broadcast_apply, matmul_zero_ix, broadcastTo_1b_ab_apply,
    Ideal.ofBits_def, Ideal.ofBits_zero_f32]
  rfl

end Cert.NodePayload

end
-- ==== Proof.EdgeBlocks.lean ====
/-
  The edge features' array after the first kernel region, as one function of the arrays the region finds.

  The region walks 200 points; point t stages rows 3000·t … 3000·t + 2999 of the concatenated endpoint rows and of
  the mask, the four weight and bias arrays whole, computes the edge features of those 3000 rows and writes them back
  to the same rows of the output. An edge feature depends only on its own row, so what point t writes back is the
  restriction to its rows of the edge features of the whole arrays; the 200 blocks tile the 600000 rows, so the array
  ends holding exactly that function. The body's arithmetic enters as a hypothesis (the payload is the edge features
  of the staged blocks), which the assembly discharges.
-/
import proofs.«139535_j86620900426032_1_alg».proof.Proof.Gen.KernelIdeal.Frame
import proofs.«139535_j86620900426032_1_alg».proof.Proof.Spec
import Idealize.ShloMosaic.Lib.Pipeline.Value
import Idealize.ShloMosaic.Lib.ValueIdx

set_option maxRecDepth 16384

noncomputable section

namespace Cert.KernelIdeal.EdgeBlocks

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The edge features of the whole arrays as the region finds them. -/
abbrev feats (c : Dev nD) : S600000x128.Idx → EReal :=
  Cert.Spec.edgeFeat (R := 600000) (V c main_v18) (V c main_arg2) (V c main_arg3) (fun k => V c main_v19 (ix2 (0 : Fin 1) k))
    (V c main_arg5) (fun k => V c main_v20 (ix2 (0 : Fin 1) k))

/-- The body's arithmetic, as the assembly supplies it: the stored value is the edge features of the loaded blocks. -/
abbrev PayloadIsSpec : Prop :=
  ∀ (v0 : Vec Ideal S3000x256 .f32) (v3 : Vec Ideal S256x128 .f32) (v6 : Vec Ideal S1x128 .f32) (v13 : Vec Ideal S128x128 .f32)
    (v16 : Vec Ideal S1x128 .f32) (v22 : Vec Ideal S3000x1 .f32),
    k0_pay1 (F := Ideal) v0 v3 v6 v13 v16 v22
      = Cert.Spec.edgeFeat (R := 3000) v0 v22 v3 (fun k => v6 (ix2 (0 : Fin 1) k)) v13 (fun k => v16 (ix2 (0 : Fin 1) k))

/-- The block index of every window at every point: the row-blocked windows move with the point, the weights and
    biases stay at block 0. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row p of point t's block is row 3000·t + p of the array. -/
def rowOf (t : Fin cfg0.N) (p : Fin 3000) : Fin 600000 :=
  ⟨t.val * 3000 + p.val, by have ht : t.val < 200 := lt_of_lt_of_eq t.isLt N_0; have := p.isLt; omega⟩

theorem read_ein (c : Dev nD) (t : Fin cfg0.N) (p : Fin 3000) (k : Fin 256) :
    iblk0 V c 0 t (ix2 p k) = V c main_v18 (ix2 (rowOf t p) k) := by
  show V c main_v18 (((cfg0.win 0).blk t).view.emb (ix2 p k)) = _
  have h : ((cfg0.win 0).blk t).view.emb (ix2 p k) = ix2 (rowOf t p) k := by
    obtain ⟨e0, e1, -⟩ := block_index t
    funext a; apply Fin.ext
    match a with
    | ⟨0, _⟩ => show win0_0.index t (0 : Fin 2) * 3000 + 1 * p.val = t.val * 3000 + p.val; omega
    | ⟨1, _⟩ => show win0_0.index t (1 : Fin 2) * 256 + 1 * k.val = k.val; omega
  rw [h]

theorem read_mask (c : Dev nD) (t : Fin cfg0.N) (p : Fin 3000) :
    iblk0 V c 1 t (ix2 p (0 : Fin 1)) = V c main_arg2 (ix2 (rowOf t p) (0 : Fin 1)) := by
  show V c main_arg2 (((cfg0.win 1).blk t).view.emb (ix2 p (0 : Fin 1))) = _
  have h : ((cfg0.win 1).blk t).view.emb (ix2 p (0 : Fin 1)) = ix2 (rowOf t p) (0 : Fin 1) := by
    obtain ⟨-, -, e2, e3, -⟩ := block_index t
    funext a; apply Fin.ext
    match a with
    | ⟨0, _⟩ => show win0_1.index t (0 : Fin 2) * 3000 + 1 * p.val = t.val * 3000 + p.val; omega
    | ⟨1, _⟩ => show win0_1.index t (1 : Fin 2) * 1 + 1 * 0 = 0; omega
  rw [h]

theorem read_w1 (c : Dev nD) (t : Fin cfg0.N) : (iblk0 V c 2 t : S256x128.Idx → EReal) = V c main_arg3 := by
  funext y
  show V c main_arg3 (((cfg0.win 2).blk t).view.emb y) = V c main_arg3 y
  have h : ((cfg0.win 2).blk t).view.emb y = y := by
    obtain ⟨-, -, -, -, e4, e5, -⟩ := block_index t
    funext a; apply Fin.ext
    match a with
    | ⟨0, _⟩ => show win0_2.index t (0 : Fin 2) * 256 + 1 * (y 0).val = (y 0).val; omega
    | ⟨1, _⟩ => show win0_2.index t (1 : Fin 2) * 128 + 1 * (y 1).val = (y 1).val; omega
  rw [h]

theorem read_b1 (c : Dev nD) (t : Fin cfg0.N) (k : Fin 128) :
    iblk0 V c 3 t (ix2 (0 : Fin 1) k) = V c main_v19 (ix2 (0 : Fin 1) k) := by
  show V c main_v19 (((cfg0.win 3).blk t).view.emb (ix2 (0 : Fin 1) k)) = _
  have h : ((cfg0.win 3).blk t).view.emb (ix2 (0 : Fin 1) k) = ix2 (0 : Fin 1) k := by
    obtain ⟨-, -, -, -, -, -, e6, e7, -⟩ := block_index t
    funext a; apply Fin.ext
    match a with
    | ⟨0, _⟩ => show win0_3.index t (0 : Fin 2) * 1 + 1 * 0 = 0; omega
    | ⟨1, _⟩ => show win0_3.index t (1 : Fin 2) * 128 + 1 * k.val = k.val; omega
  rw [h]

theorem read_w2 (c : Dev nD) (t : Fin cfg0.N) : (iblk0 V c 4 t : S128x128.Idx → EReal) = V c main_arg5 := by
  funext y
  show V c main_arg5 (((cfg0.win 4).blk t).view.emb y) = V c main_arg5 y
  have h : ((cfg0.win 4).blk t).view.emb y = y := by
    obtain ⟨-, -, -, -, -, -, -, -, e8, e9, -⟩ := block_index t
    funext a; apply Fin.ext
    match a with
    | ⟨0, _⟩ => show win0_4.index t (0 : Fin 2) * 128 + 1 * (y 0).val = (y 0).val; omega
    | ⟨1, _⟩ => show win0_4.index t (1 : Fin 2) * 128 + 1 * (y 1).val = (y 1).val; omega
  rw [h]

theorem read_b2 (c : Dev nD) (t : Fin cfg0.N) (k : Fin 128) :
    iblk0 V c 5 t (ix2 (0 : Fin 1) k) = V c main_v20 (ix2 (0 : Fin 1) k) := by
  show V c main_v20 (((cfg0.win 5).blk t).view.emb (ix2 (0 : Fin 1) k)) = _
  have h : ((cfg0.win 5).blk t).view.emb (ix2 (0 : Fin 1) k) = ix2 (0 : Fin 1) k := by
    obtain ⟨-, -, -, -, -, -, -, -, -, -, e10, e11, -⟩ := block_index t
    funext a; apply Fin.ext
    match a with
    | ⟨0, _⟩ => show win0_5.index t (0 : Fin 2) * 1 + 1 * 0 = 0; omega
    | ⟨1, _⟩ => show win0_5.index t (1 : Fin 2) * 128 + 1 * k.val = k.val; omega
  rw [h]

/-- Entry (p, q) of point t's output block sits at (3000·t + p, q) of the output array. -/
theorem out_index (t : Fin cfg0.N) (p : Fin 3000) (q : Fin 128) :
    ((cfg0.win 6).blk t).view.emb (ix2 p q) = ix2 (rowOf t p) q := by
  obtain ⟨-, -, -, -, -, -, -, -, -, -, -, -, e12, e13⟩ := block_index t
  funext a; apply Fin.ext
  match a with
  | ⟨0, _⟩ => show win0_6.index t (0 : Fin 2) * 3000 + 1 * p.val = t.val * 3000 + p.val; omega
  | ⟨1, _⟩ => show win0_6.index t (1 : Fin 2) * 128 + 1 * q.val = q.val; omega

/-- What point t writes back is its block of the edge features of the whole arrays. -/
theorem flushed (hpay : PayloadIsSpec) (c : Dev nD) (t : Fin cfg0.N) :
    (dat0 V c).flushed 6 t = ((cfg0.win 6).blk t).view.read (Elt Ideal) (feats V c) := by
  show (cfg0.win 6).cut (grid0.coords t) ((dat0 V c).after 6 t) = _
  rw [after0_6]
  unfold out0_6
  rw [View.canon_unit_zero origin]
  simp only [View.ld_unit_zero (S := S3000x256) origin, View.ld_unit_zero (S := S3000x1) origin,
    View.ld_unit_zero (S := S256x128) origin, View.ld_unit_zero (S := S1x128) origin, View.ld_unit_zero (S := S128x128) origin]
  rw [hpay]
  funext j
  obtain ⟨p, q, rfl⟩ : ∃ (p : Fin 3000) (q : Fin 128), j = ix2 p q := ⟨j 0, j 1, eq_ix2 j⟩
  show Cert.Spec.edgeFeat (R := 3000) (iblk0 V c 0 t) (iblk0 V c 1 t) (iblk0 V c 2 t) (fun k => iblk0 V c 3 t (ix2 (0 : Fin 1) k))
      (iblk0 V c 4 t) (fun k => iblk0 V c 5 t (ix2 (0 : Fin 1) k)) (ix2 p q)
    = feats V c (((cfg0.win 6).blk t).view.emb (ix2 p q))
  rw [out_index t p q]
  exact Cert.Spec.edgeFeat_row (R := 3000) (R' := 600000) (iblk0 V c 0 t) (V c main_v18) (iblk0 V c 1 t) (V c main_arg2)
    (iblk0 V c 2 t) (V c main_arg3) (fun k => iblk0 V c 3 t (ix2 (0 : Fin 1) k)) (fun k => V c main_v19 (ix2 (0 : Fin 1) k))
    (iblk0 V c 4 t) (V c main_arg5) (fun k => iblk0 V c 5 t (ix2 (0 : Fin 1) k)) (fun k => V c main_v20 (ix2 (0 : Fin 1) k))
    p (rowOf t p) q (read_ein V c t p) (read_mask V c t p) (read_w1 V c t) (read_b1 V c t) (read_w2 V c t) (read_b2 V c t)

/-- An index of the output array is in point t's block iff each coordinate is in the block's range on its axis. -/
theorem mem_block (t : Fin cfg0.N) (i : S600000x128.Idx) :
    i ∈ ((cfg0.win 6).blk t).view.set ↔ ∀ a : Fin 2, win0_6.index t a * S3000x128.size a ≤ (i a).val ∧ (i a).val < win0_6.index t a * S3000x128.size a + S3000x128.size a := by
  show i ∈ ((View.whole main_v21).slice (win0_6.rect t)).set ↔ _
  rw [View.set_slice_whole, Rect.mem_set_unit]
  exact Iff.rfl

/-- Every row of the output lies in the block of the point that is its row divided by 3000. -/
theorem covered (i : S600000x128.Idx) :
    ∃ t : Fin cfg0.N, (cfg0.win 6).flush t = true ∧ i ∈ ((cfg0.win 6).blk t).view.set := by
  have hi0 : (i 0).val < 600000 := (i 0).isLt
  have hi1 : (i 1).val < 128 := (i 1).isLt
  have hN : cfg0.N = 200 := N_0
  let t : Fin cfg0.N := ⟨(i 0).val / 3000, by rw [hN]; omega⟩
  have htv : t.val = (i 0).val / 3000 := rfl
  obtain ⟨-, -, -, -, -, -, -, -, -, -, -, -, e12, e13⟩ := block_index t
  refine ⟨t, flush0_6 t, ?_⟩
  rw [mem_block]
  intro a
  match a with
  | ⟨0, _⟩ => show win0_6.index t (0 : Fin 2) * 3000 ≤ (i 0).val ∧ (i 0).val < win0_6.index t (0 : Fin 2) * 3000 + 3000; omega
  | ⟨1, _⟩ => show win0_6.index t (1 : Fin 2) * 128 ≤ (i 1).val ∧ (i 1).val < win0_6.index t (1 : Fin 2) * 128 + 128; omega

/-- After the region the output array holds the edge features of the arrays the region found. -/
theorem final (hpay : PayloadIsSpec) (c : Dev nD) : (dat0 V c).arrAt 6 cfg0.N = feats V c :=
  (dat0 V c).arrAt_eq_of_cover 6 (feats V c) (fun t _ => flushed V hpay c t) covered

end Cert.KernelIdeal.EdgeBlocks

end
-- ==== Proof.NodeBlocks.lean ====
/-
  The node outputs' array after the second kernel region, as one function of the arrays the region finds.

  The region walks 10 points; point t stages rows 5000·t … 5000·t + 4999 of the node features and of the aggregated
  edge features, the five weight and bias arrays whole, computes the node outputs of those 5000 rows and writes them
  back to the same rows of the output. A node output depends only on its own row of the two row-blocked inputs, so
  what point t writes back is the restriction to its rows of the node outputs of the whole arrays; the 10 blocks tile
  the 50000 rows, so the array ends holding exactly that function. The body's arithmetic enters as a hypothesis (the
  payload is the node outputs of the staged blocks), which the assembly discharges.
-/
import proofs.«139535_j86620900426032_1_alg».proof.Proof.Gen.KernelIdeal.Frame
import proofs.«139535_j86620900426032_1_alg».proof.Proof.Spec
import Idealize.ShloMosaic.Lib.Pipeline.Value
import Idealize.ShloMosaic.Lib.ValueIdx

set_option maxRecDepth 16384

noncomputable section

namespace Cert.KernelIdeal.NodeBlocks

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The node outputs of the whole arrays as the region finds them. -/
abbrev outs (c : Dev nD) : S50000x128.Idx → EReal :=
  Cert.Spec.nodeOut (R := 50000) (V c main_arg0) (V c main_v24) (V c main_v25) (V c main_v26) (fun k => V c main_v27 (ix2 (0 : Fin 1) k))
    (V c main_arg9) (fun k => V c main_v28 (ix2 (0 : Fin 1) k))

/-- The body's arithmetic, as the assembly supplies it: the stored value is the node outputs of the loaded blocks. -/
abbrev PayloadIsSpec : Prop :=
  ∀ (v0 v2 : Vec Ideal S5000x128 .f32) (v5 v8 : Vec Ideal S128x128 .f32) (v14 : Vec Ideal S1x128 .f32) (v21 : Vec Ideal S128x128 .f32)
    (v24 : Vec Ideal S1x128 .f32),
    k1_pay1 (F := Ideal) v0 v2 v5 v8 v14 v21 v24 v0
      = Cert.Spec.nodeOut (R := 5000) v0 v2 v5 v8 (fun k => v14 (ix2 (0 : Fin 1) k)) v21 (fun k => v24 (ix2 (0 : Fin 1) k))

/-- The block index of every window at every point: the row-blocked windows move with the point, the weights and
    biases stay at block 0. -/
theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- Row p of point t's block is row 5000·t + p of the array. -/
def rowOf (t : Fin cfg1.N) (p : Fin 5000) : Fin 50000 :=
  ⟨t.val * 5000 + p.val, by have ht : t.val < 10 := lt_of_lt_of_eq t.isLt N_1; have := p.isLt; omega⟩

theorem read_x (c : Dev nD) (t : Fin cfg1.N) (p : Fin 5000) (k : Fin 128) :
    iblk1 V c 0 t (ix2 p k) = V c main_arg0 (ix2 (rowOf t p) k) := by
  show V c main_arg0 (((cfg1.win 0).blk t).view.emb (ix2 p k)) = _
  have h : ((cfg1.win 0).blk t).view.emb (ix2 p k) = ix2 (rowOf t p) k := by
    obtain ⟨e0, e1, -⟩ := block_index t
    funext a; apply Fin.ext
    match a with
    | ⟨0, _⟩ => show win1_0.index t (0 : Fin 2) * 5000 + 1 * p.val = t.val * 5000 + p.val; omega
    | ⟨1, _⟩ => show win1_0.index t (1 : Fin 2) * 128 + 1 * k.val = k.val; omega
  rw [h]

theorem read_agg (c : Dev nD) (t : Fin cfg1.N) (p : Fin 5000) (k : Fin 128) :
    iblk1 V c 1 t (ix2 p k) = V c main_v24 (ix2 (rowOf t p) k) := by
  show V c main_v24 (((cfg1.win 1).blk t).view.emb (ix2 p k)) = _
  have h : ((cfg1.win 1).blk t).view.emb (ix2 p k) = ix2 (rowOf t p) k := by
    obtain ⟨-, -, e2, e3, -⟩ := block_index t
    funext a; apply Fin.ext
    match a with
    | ⟨0, _⟩ => show win1_1.index t (0 : Fin 2) * 5000 + 1 * p.val = t.val * 5000 + p.val; omega
    | ⟨1, _⟩ => show win1_1.index t (1 : Fin 2) * 128 + 1 * k.val = k.val; omega
  rw [h]

theorem read_wx (c : Dev nD) (t : Fin cfg1.N) : (iblk1 V c 2 t : S128x128.Idx → EReal) = V c main_v25 := by
  funext y
  show V c main_v25 (((cfg1.win 2).blk t).view.emb y) = V c main_v25 y
  have h : ((cfg1.win 2).blk t).view.emb y = y := by
    obtain ⟨-, -, -, -, e4, e5, -⟩ := block_index t
    funext a; apply Fin.ext
    match a with
    | ⟨0, _⟩ => show win1_2.index t (0 : Fin 2) * 128 + 1 * (y 0).val = (y 0).val; omega
    | ⟨1, _⟩ => show win1_2.index t (1 : Fin 2) * 128 + 1 * (y 1).val = (y 1).val; omega
  rw [h]

theorem read_wa (c : Dev nD) (t : Fin cfg1.N) : (iblk1 V c 3 t : S128x128.Idx → EReal) = V c main_v26 := by
  funext y
  show V c main_v26 (((cfg1.win 3).blk t).view.emb y) = V c main_v26 y
  have h : ((cfg1.win 3).blk t).view.emb y = y := by
    obtain ⟨-, -, -, -, -, -, e6, e7, -⟩ := block_index t
    funext a; apply Fin.ext
    match a with
    | ⟨0, _⟩ => show win1_3.index t (0 : Fin 2) * 128 + 1 * (y 0).val = (y 0).val; omega
    | ⟨1, _⟩ => show win1_3.index t (1 : Fin 2) * 128 + 1 * (y 1).val = (y 1).val; omega
  rw [h]

theorem read_b1 (c : Dev nD) (t : Fin cfg1.N) (k : Fin 128) :
    iblk1 V c 4 t (ix2 (0 : Fin 1) k) = V c main_v27 (ix2 (0 : Fin 1) k) := by
  show V c main_v27 (((cfg1.win 4).blk t).view.emb (ix2 (0 : Fin 1) k)) = _
  have h : ((cfg1.win 4).blk t).view.emb (ix2 (0 : Fin 1) k) = ix2 (0 : Fin 1) k := by
    obtain ⟨-, -, -, -, -, -, -, -, e8, e9, -⟩ := block_index t
    funext a; apply Fin.ext
    match a with
    | ⟨0, _⟩ => show win1_4.index t (0 : Fin 2) * 1 + 1 * 0 = 0; omega
    | ⟨1, _⟩ => show win1_4.index t (1 : Fin 2) * 128 + 1 * k.val = k.val; omega
  rw [h]

theorem read_w2 (c : Dev nD) (t : Fin cfg1.N) : (iblk1 V c 5 t : S128x128.Idx → EReal) = V c main_arg9 := by
  funext y
  show V c main_arg9 (((cfg1.win 5).blk t).view.emb y) = V c main_arg9 y
  have h : ((cfg1.win 5).blk t).view.emb y = y := by
    obtain ⟨-, -, -, -, -, -, -, -, -, -, e10, e11, -⟩ := block_index t
    funext a; apply Fin.ext
    match a with
    | ⟨0, _⟩ => show win1_5.index t (0 : Fin 2) * 128 + 1 * (y 0).val = (y 0).val; omega
    | ⟨1, _⟩ => show win1_5.index t (1 : Fin 2) * 128 + 1 * (y 1).val = (y 1).val; omega
  rw [h]

theorem read_b2 (c : Dev nD) (t : Fin cfg1.N) (k : Fin 128) :
    iblk1 V c 6 t (ix2 (0 : Fin 1) k) = V c main_v28 (ix2 (0 : Fin 1) k) := by
  show V c main_v28 (((cfg1.win 6).blk t).view.emb (ix2 (0 : Fin 1) k)) = _
  have h : ((cfg1.win 6).blk t).view.emb (ix2 (0 : Fin 1) k) = ix2 (0 : Fin 1) k := by
    obtain ⟨-, -, -, -, -, -, -, -, -, -, -, -, e12, e13, -⟩ := block_index t
    funext a; apply Fin.ext
    match a with
    | ⟨0, _⟩ => show win1_6.index t (0 : Fin 2) * 1 + 1 * 0 = 0; omega
    | ⟨1, _⟩ => show win1_6.index t (1 : Fin 2) * 128 + 1 * k.val = k.val; omega
  rw [h]

/-- Entry (p, q) of point t's output block sits at (5000·t + p, q) of the output array. -/
theorem out_index (t : Fin cfg1.N) (p : Fin 5000) (q : Fin 128) :
    ((cfg1.win 7).blk t).view.emb (ix2 p q) = ix2 (rowOf t p) q := by
  obtain ⟨-, -, -, -, -, -, -, -, -, -, -, -, -, -, e14, e15⟩ := block_index t
  funext a; apply Fin.ext
  match a with
  | ⟨0, _⟩ => show win1_7.index t (0 : Fin 2) * 5000 + 1 * p.val = t.val * 5000 + p.val; omega
  | ⟨1, _⟩ => show win1_7.index t (1 : Fin 2) * 128 + 1 * q.val = q.val; omega

/-- What point t writes back is its block of the node outputs of the whole arrays. -/
theorem flushed (hpay : PayloadIsSpec) (c : Dev nD) (t : Fin cfg1.N) :
    (dat1 V c).flushed 7 t = ((cfg1.win 7).blk t).view.read (Elt Ideal) (outs V c) := by
  show (cfg1.win 7).cut (grid1.coords t) ((dat1 V c).after 7 t) = _
  rw [after1_7]
  unfold out1_7
  rw [View.canon_unit_zero origin]
  simp only [View.ld_unit_zero (S := S5000x128) origin, View.ld_unit_zero (S := S1x128) origin, View.ld_unit_zero (S := S128x128) origin]
  rw [hpay]
  funext j
  obtain ⟨p, q, rfl⟩ : ∃ (p : Fin 5000) (q : Fin 128), j = ix2 p q := ⟨j 0, j 1, eq_ix2 j⟩
  show Cert.Spec.nodeOut (R := 5000) (iblk1 V c 0 t) (iblk1 V c 1 t) (iblk1 V c 2 t) (iblk1 V c 3 t) (fun k => iblk1 V c 4 t (ix2 (0 : Fin 1) k))
      (iblk1 V c 5 t) (fun k => iblk1 V c 6 t (ix2 (0 : Fin 1) k)) (ix2 p q)
    = outs V c (((cfg1.win 7).blk t).view.emb (ix2 p q))
  rw [out_index t p q]
  exact Cert.Spec.nodeOut_row (R := 5000) (R' := 50000) (iblk1 V c 0 t) (iblk1 V c 1 t) (V c main_arg0) (V c main_v24)
    (iblk1 V c 2 t) (V c main_v25) (iblk1 V c 3 t) (V c main_v26)
    (fun k => iblk1 V c 4 t (ix2 (0 : Fin 1) k)) (fun k => V c main_v27 (ix2 (0 : Fin 1) k))
    (iblk1 V c 5 t) (V c main_arg9) (fun k => iblk1 V c 6 t (ix2 (0 : Fin 1) k)) (fun k => V c main_v28 (ix2 (0 : Fin 1) k))
    p (rowOf t p) q (read_x V c t p) (read_agg V c t p) (read_wx V c t) (read_wa V c t) (read_b1 V c t) (read_w2 V c t) (read_b2 V c t)

/-- An index of the output array is in point t's block iff each coordinate is in the block's range on its axis. -/
theorem mem_block (t : Fin cfg1.N) (i : S50000x128.Idx) :
    i ∈ ((cfg1.win 7).blk t).view.set ↔ ∀ a : Fin 2, win1_7.index t a * S5000x128.size a ≤ (i a).val ∧ (i a).val < win1_7.index t a * S5000x128.size a + S5000x128.size a := by
  show i ∈ ((View.whole main_v29).slice (win1_7.rect t)).set ↔ _
  rw [View.set_slice_whole, Rect.mem_set_unit]
  exact Iff.rfl

/-- Every row of the output lies in the block of the point that is its row divided by 5000. -/
theorem covered (i : S50000x128.Idx) :
    ∃ t : Fin cfg1.N, (cfg1.win 7).flush t = true ∧ i ∈ ((cfg1.win 7).blk t).view.set := by
  have hi0 : (i 0).val < 50000 := (i 0).isLt
  have hi1 : (i 1).val < 128 := (i 1).isLt
  have hN : cfg1.N = 10 := N_1
  let t : Fin cfg1.N := ⟨(i 0).val / 5000, by rw [hN]; omega⟩
  have htv : t.val = (i 0).val / 5000 := rfl
  obtain ⟨-, -, -, -, -, -, -, -, -, -, -, -, -, -, e14, e15⟩ := block_index t
  refine ⟨t, flush1_7 t, ?_⟩
  rw [mem_block]
  intro a
  match a with
  | ⟨0, _⟩ => show win1_7.index t (0 : Fin 2) * 5000 ≤ (i 0).val ∧ (i 0).val < win1_7.index t (0 : Fin 2) * 5000 + 5000; omega
  | ⟨1, _⟩ => show win1_7.index t (1 : Fin 2) * 128 ≤ (i 1).val ∧ (i 1).val < win1_7.index t (1 : Fin 2) * 128 + 128; omega

/-- After the region the output array holds the node outputs of the arrays the region found. -/
theorem final (hpay : PayloadIsSpec) (c : Dev nD) : (dat1 V c).arrAt 7 cfg1.N = outs V c :=
  (dat1 V c).arrAt_eq_of_cover 7 (outs V c) (fun t _ => flushed V hpay c t) covered

end Cert.KernelIdeal.NodeBlocks

end
-- ==== Proof.RefValue.lean ====
/-
  The reference program's two results, read index by index on the extended reals.

  The edge result is the two-layer perceptron of the concatenated endpoint rows (max(·, 0) after each layer) times
  the edge's mask; the node result is the two-layer perceptron of the node's row joined with its aggregated row, plus
  the node's row. The joined row's first layer is one sum over 256 terms; it is split into the first 128 terms, where
  the joined row is the node's own row and the weights are the upper half of the matrix, and the last 128, where it is
  the aggregated row and the weights are the lower half. The gathers, the edge rows' join and the scatter are never
  opened: they appear as the terms the generated module names.
-/
import proofs.«139535_j86620900426032_1_alg».proof.Proof.Gen.ReferenceIdeal.Read
import proofs.«139535_j86620900426032_1_alg».proof.Proof.Spec
import Idealize.ShloMosaic.Lib.Pipeline.Value
import Idealize.ShloMosaic.Lib.ValueIdx
import Idealize.ShloMosaic.PureOps.Ideal
import Idealize.ShloMosaic.PureOps.Ideal.Laws

noncomputable section

open scoped BigOperators

namespace Cert.RefValue

open Cert.ReferenceIdeal Cert.ReferenceIdeal.Gen Cert.ReferenceIdeal.Read Idealize.ShloMosaic Idealize.ShloMosaic.ValueIdx

/-! ## The edge side -/

/-- The first edge layer followed by max(·, 0), at row `r` and hidden feature `k`. -/
theorem edgeHidden_apply (x0 : (⟨S50000x128, .f32⟩ : BufTy).Contents (Elt Ideal))
    (x1 : (⟨S2x600000, .i32⟩ : BufTy).Contents (Elt Ideal)) (x3 : (⟨S256x128, .f32⟩ : BufTy).Contents (Elt Ideal))
    (x4 : (⟨S128, .f32⟩ : BufTy).Contents (Elt Ideal)) (r : Fin 600000) (k : Fin 128) :
    Read.val_main_v23 (F := Ideal) x0 x1 x3 x4 (ix2 r k)
      = max (Cert.Spec.dense (fun k' => Read.val_main_v18 (F := Ideal) x0 x1 (ix2 r k')) x3 (fun k => x4 (ix1 k)) k) 0 := by
  rw [val_main_v23_apply, val_main_v22_apply, val_main_v19_apply, val_main_v21_apply, val_main_v20_apply,
    val_main_call0_v0_apply, val_main_call0_cst_apply]
  generalize Read.val_main_v18 (F := Ideal) x0 x1 = ein
  have e1 : ∀ k' : Fin 256, lidx_main_v19 (ix2 r k) k' = ix2 r k' := fun k' =>
    funext fun a => Fin.ext (by match a with | ⟨0, _⟩ => rfl | ⟨1, _⟩ => rfl)
  have e2 : ∀ k' : Fin 256, ridx_main_v19 (ix2 r k) k' = ix2 k' k := fun k' =>
    funext fun a => Fin.ext (by match a with | ⟨0, _⟩ => rfl | ⟨1, _⟩ => rfl)
  have e3 : idx_main_v20 (idx_main_v21 (ix2 r k)) = ix1 k :=
    funext fun a => Fin.ext (by match a with | ⟨0, _⟩ => rfl)
  simp only [e1, e2, e3, Ideal.maximumf_def, Ideal.addf_def, Ideal.ofBits_def, Ideal.ofBits_zero_f32]
  rfl

/-- The reference's edge result is the edge features of the joined endpoint rows. -/
theorem edge_eq (x0 : (⟨S50000x128, .f32⟩ : BufTy).Contents (Elt Ideal))
    (x1 : (⟨S2x600000, .i32⟩ : BufTy).Contents (Elt Ideal)) (x2 : (⟨S600000x1, .f32⟩ : BufTy).Contents (Elt Ideal))
    (x3 : (⟨S256x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal)) :
    Read.val_main_v30 (F := Ideal) x0 x1 x2 x3 x4 x5 x6
      = Cert.Spec.edgeFeat (R := 600000) (Read.val_main_v18 (F := Ideal) x0 x1) x2 x3 (fun k => x4 (ix1 k)) x5
          (fun k => x6 (ix1 k)) := by
  funext i
  obtain ⟨p, q, rfl⟩ : ∃ (p : Fin 600000) (q : Fin 128), i = ix2 p q := ⟨i 0, i 1, eq_ix2 i⟩
  rw [val_main_v30_apply, val_main_v28_apply, val_main_v27_apply, val_main_v24_apply, val_main_v26_apply,
    val_main_v25_apply, val_main_call1_v0_apply, val_main_call1_cst_apply, val_main_v29_apply]
  have e1 : ∀ k' : Fin 128, lidx_main_v24 (ix2 p q) k' = ix2 p k' := fun k' =>
    funext fun a => Fin.ext (by match a with | ⟨0, _⟩ => rfl | ⟨1, _⟩ => rfl)
  have e2 : ∀ k' : Fin 128, ridx_main_v24 (ix2 p q) k' = ix2 k' q := fun k' =>
    funext fun a => Fin.ext (by match a with | ⟨0, _⟩ => rfl | ⟨1, _⟩ => rfl)
  have e3 : idx_main_v25 (idx_main_v26 (ix2 p q)) = ix1 q :=
    funext fun a => Fin.ext (by match a with | ⟨0, _⟩ => rfl)
  have e4 : idx_main_v29 (ix2 p q) = ix2 p (0 : Fin 1) :=
    funext fun a => Fin.ext (by match a with | ⟨0, _⟩ => rfl | ⟨1, _⟩ => rfl)
  simp only [e1, e2, e3, e4, edgeHidden_apply, Ideal.maximumf_def, Ideal.addf_def, Ideal.mulf_def, Ideal.ofBits_def,
    Ideal.ofBits_zero_f32]
  rfl

/-! ## The node side -/

/-- The joined row [node row, aggregated row] at one of its first 128 columns is the node's own row there. -/
theorem joined_left (x0 : (⟨S50000x128, .f32⟩ : BufTy).Contents (Elt Ideal))
    (x1 : (⟨S2x600000, .i32⟩ : BufTy).Contents (Elt Ideal)) (x2 : (⟨S600000x1, .f32⟩ : BufTy).Contents (Elt Ideal))
    (x3 : (⟨S256x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal))
    (r : Fin 50000) (k k' : Fin 128) :
    Read.val_main_v34 (F := Ideal) x0 x1 x2 x3 x4 x5 x6 (lidx_main_v35 (ix2 r k) (Fin.castAdd 128 k'))
      = x0 (ix2 r k') := by
  unfold val_main_v34
  generalize Read.val_main_v33 (F := Ideal) x0 x1 x2 x3 x4 x5 x6 = agg
  exact concatenate_pair_apply_left (1 : Fin 2) x0 agg concatenates_S50000x128_S50000x128_S50000x256_d1
    (lidx_main_v35 (ix2 r k) (Fin.castAdd 128 k')) rfl (ix2 r k')
    (fun b => by match b with | ⟨0, _⟩ => rfl | ⟨1, _⟩ => rfl)

/-- The joined row at one of its last 128 columns is the aggregated row at that column less 128. -/
theorem joined_right (x0 : (⟨S50000x128, .f32⟩ : BufTy).Contents (Elt Ideal))
    (x1 : (⟨S2x600000, .i32⟩ : BufTy).Contents (Elt Ideal)) (x2 : (⟨S600000x1, .f32⟩ : BufTy).Contents (Elt Ideal))
    (x3 : (⟨S256x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal))
    (r : Fin 50000) (k k' : Fin 128) :
    Read.val_main_v34 (F := Ideal) x0 x1 x2 x3 x4 x5 x6 (lidx_main_v35 (ix2 r k) (Fin.natAdd 128 k'))
      = Read.val_main_v33 (F := Ideal) x0 x1 x2 x3 x4 x5 x6 (ix2 r k') := by
  unfold val_main_v34
  generalize Read.val_main_v33 (F := Ideal) x0 x1 x2 x3 x4 x5 x6 = agg
  exact concatenate_pair_apply_right (1 : Fin 2) x0 agg concatenates_S50000x128_S50000x128_S50000x256_d1
    (lidx_main_v35 (ix2 r k) (Fin.natAdd 128 k')) rfl rfl (ix2 r k')
    (fun b hb => by
      match b with
      | ⟨0, _⟩ => rfl
      | ⟨1, _⟩ => exact absurd rfl hb)
    (by show k'.val + 128 = 128 + k'.val; omega)

/-- The first node layer followed by max(·, 0), at row `r` and hidden feature `k`: the one sum over the joined row's
    256 columns is the sum over the node's row through the upper half of the weights plus the sum over the aggregated
    row through the lower half. -/
theorem nodeHidden_apply (x0 : (⟨S50000x128, .f32⟩ : BufTy).Contents (Elt Ideal))
    (x1 : (⟨S2x600000, .i32⟩ : BufTy).Contents (Elt Ideal)) (x2 : (⟨S600000x1, .f32⟩ : BufTy).Contents (Elt Ideal))
    (x3 : (⟨S256x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal))
    (x7 : (⟨S256x128, .f32⟩ : BufTy).Contents (Elt Ideal)) (x8 : (⟨S128, .f32⟩ : BufTy).Contents (Elt Ideal))
    (r : Fin 50000) (k : Fin 128) :
    Read.val_main_v39 (F := Ideal) x0 x1 x2 x3 x4 x5 x6 x7 x8 (ix2 r k)
      = max (Cert.Spec.nodeHidden (R := 50000) x0 (Read.val_main_v33 (F := Ideal) x0 x1 x2 x3 x4 x5 x6)
          (Cert.Spec.topRows x7) (Cert.Spec.botRows x7) (fun k => x8 (ix1 k)) r k) 0 := by
  rw [val_main_v39_apply, val_main_v38_apply, val_main_v35_apply, val_main_v37_apply, val_main_v36_apply,
    val_main_call2_v0_apply, val_main_call2_cst_apply, Cert.Spec.sum_halves]
  have e2 : ∀ k' : Fin 256, ridx_main_v35 (ix2 r k) k' = ix2 k' k := fun k' =>
    funext fun a => Fin.ext (by match a with | ⟨0, _⟩ => rfl | ⟨1, _⟩ => rfl)
  have e3 : idx_main_v36 (idx_main_v37 (ix2 r k)) = ix1 k :=
    funext fun a => Fin.ext (by match a with | ⟨0, _⟩ => rfl)
  simp only [joined_left, joined_right, e2, e3, Ideal.maximumf_def, Ideal.addf_def, Ideal.ofBits_def,
    Ideal.ofBits_zero_f32]
  rfl

/-- The reference's node result is the node outputs of the node rows and the aggregated rows. -/
theorem node_eq (x0 : (⟨S50000x128, .f32⟩ : BufTy).Contents (Elt Ideal))
    (x1 : (⟨S2x600000, .i32⟩ : BufTy).Contents (Elt Ideal)) (x2 : (⟨S600000x1, .f32⟩ : BufTy).Contents (Elt Ideal))
    (x3 : (⟨S256x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal))
    (x7 : (⟨S256x128, .f32⟩ : BufTy).Contents (Elt Ideal)) (x8 : (⟨S128, .f32⟩ : BufTy).Contents (Elt Ideal))
    (x9 : (⟨S128x128, .f32⟩ : BufTy).Contents (Elt Ideal)) (x10 : (⟨S128, .f32⟩ : BufTy).Contents (Elt Ideal)) :
    Read.val_main_v44 (F := Ideal) x0 x1 x2 x3 x4 x5 x6 x7 x8 x9 x10
      = Cert.Spec.nodeOut (R := 50000) x0 (Read.val_main_v33 (F := Ideal) x0 x1 x2 x3 x4 x5 x6) (Cert.Spec.topRows x7)
          (Cert.Spec.botRows x7) (fun k => x8 (ix1 k)) x9 (fun k => x10 (ix1 k)) := by
  funext i
  obtain ⟨p, q, rfl⟩ : ∃ (p : Fin 50000) (q : Fin 128), i = ix2 p q := ⟨i 0, i 1, eq_ix2 i⟩
  rw [val_main_v44_apply, val_main_v43_apply, val_main_v40_apply, val_main_v42_apply, val_main_v41_apply]
  have e1 : ∀ k' : Fin 128, lidx_main_v40 (ix2 p q) k' = ix2 p k' := fun k' =>
    funext fun a => Fin.ext (by match a with | ⟨0, _⟩ => rfl | ⟨1, _⟩ => rfl)
  have e2 : ∀ k' : Fin 128, ridx_main_v40 (ix2 p q) k' = ix2 k' q := fun k' =>
    funext fun a => Fin.ext (by match a with | ⟨0, _⟩ => rfl | ⟨1, _⟩ => rfl)
  have e3 : idx_main_v41 (idx_main_v42 (ix2 p q)) = ix1 q :=
    funext fun a => Fin.ext (by match a with | ⟨0, _⟩ => rfl)
  simp only [e1, e2, e3, nodeHidden_apply, Ideal.addf_def]
  rfl

end Cert.RefValue

end
-- ==== Proof.KernelValue.lean ====
/-
  The kernel's two result arrays as functions of its eleven arguments.

  The program is four stretches: host operations, the edge kernel's region, host operations, the node kernel's
  region. Read backwards from the last boundary: the node outputs' array is what the second region leaves, the node
  outputs of the arrays it finds; of those, the aggregate is the scatter-add, by the first row of the edge index, of the
  edge features' array the first region left, the two halves of the first node weight matrix are its row slices, the
  biases are the bias vectors viewed as one-row matrices, and the rest are arguments no stretch writes. The edge
  features' array is what the first region leaves, the edge features of the arrays it finds: the concatenated gathered
  endpoint rows, the mask, and the edge weights and biases. The gathers, the concatenation and the scatter-add are
  the same host operations in the reference, so both arrays are stated as the reference's own stage terms of the
  kernel's arguments; each body's arithmetic is the specification's (the two payload lemmas), and the reference's
  stages are the same specification (the reference-side lemmas).
-/
import proofs.«139535_j86620900426032_1_alg».proof.Proof.Gen.KernelIdeal.Frame
import proofs.«139535_j86620900426032_1_alg».proof.Proof.Gen.ReferenceIdeal.Read
import proofs.«139535_j86620900426032_1_alg».proof.Proof.Spec
import proofs.«139535_j86620900426032_1_alg».proof.Proof.EdgePayload
import proofs.«139535_j86620900426032_1_alg».proof.Proof.NodePayload
import proofs.«139535_j86620900426032_1_alg».proof.Proof.EdgeBlocks
import proofs.«139535_j86620900426032_1_alg».proof.Proof.NodeBlocks
import proofs.«139535_j86620900426032_1_alg».proof.Proof.RefValue
import Idealize.ShloMosaic.Lib.StableHlo.Run
import Idealize.ShloMosaic.Lib.ValueLayout

set_option maxRecDepth 16384

noncomputable section

namespace Cert.KernelIdeal.Value

open Cert.KernelIdeal Cert.KernelIdeal.Gen
open Idealize.ShloMosaic Idealize.ShloMosaic.TcCoe Idealize.ShloMosaic.ValueIdx Idealize.SL.Sem Idealize.ShloMosaic.StableHlo
open Cert.ReferenceIdeal (Read.val_main_v1 Read.val_main_v18 Read.val_main_v30 Read.val_main_v33 Read.val_main_v44)

variable (m : (ℓ : Loc nD τ sig) → Buf (Elt Ideal) ℓ) (ρ : Dev nD → PrngReg)

/-! ## Equal arguments give equal specification values -/

theorem edgeFeat_congr {R : ℕ} {ein ein' : Cert.Spec.Mat R 256} {mask mask' : Cert.Spec.Mat R 1} {w1 w1' : Cert.Spec.Mat 256 128}
    {b1 b1' : Fin 128 → EReal} {w2 w2' : Cert.Spec.Mat 128 128} {b2 b2' : Fin 128 → EReal}
    (h1 : ein = ein') (h2 : mask = mask') (h3 : w1 = w1') (h4 : b1 = b1') (h5 : w2 = w2') (h6 : b2 = b2') :
    Cert.Spec.edgeFeat ein mask w1 b1 w2 b2 = Cert.Spec.edgeFeat ein' mask' w1' b1' w2' b2' := by
  subst h1 h2 h3 h4 h5 h6; rfl

theorem nodeOut_congr {R : ℕ} {x x' agg agg' : Cert.Spec.Mat R 128} {wx wx' wa wa' : Cert.Spec.Mat 128 128}
    {b1 b1' : Fin 128 → EReal} {w2 w2' : Cert.Spec.Mat 128 128} {b2 b2' : Fin 128 → EReal}
    (h1 : x = x') (h2 : agg = agg') (h3 : wx = wx') (h4 : wa = wa') (h5 : b1 = b1') (h6 : w2 = w2') (h7 : b2 = b2') :
    Cert.Spec.nodeOut x agg wx wa b1 w2 b2 = Cert.Spec.nodeOut x' agg' wx' wa' b1' w2' b2' := by
  subst h1 h2 h3 h4 h5 h6 h7; rfl

/-! ## What the first region finds -/

/-- The concatenated gathered endpoint rows: the reference's own stage of the same two arguments. -/
theorem entry0_rows (c : Dev nD) : V1 m ρ c main_v18 = Read.val_main_v18 (F := Ideal) (m ((c : Thread nD τ).loc main_arg0)) (m ((c : Thread nD τ).loc main_arg1)) := by
  show StableHlo.after hostOps0 (W0 m ρ c) (Proc.devRef .tc main_v18) = _
  after_results_simp
  rfl

theorem entry0_mask (c : Dev nD) : V1 m ρ c main_arg2 = (m ((c : Thread nD τ).loc main_arg2)) := by
  show StableHlo.after hostOps0 (W0 m ρ c) (Proc.devRef .tc main_arg2) = _
  after_results <;> rfl

theorem entry0_w1 (c : Dev nD) : V1 m ρ c main_arg3 = (m ((c : Thread nD τ).loc main_arg3)) := by
  show StableHlo.after hostOps0 (W0 m ρ c) (Proc.devRef .tc main_arg3) = _
  after_results <;> rfl

theorem entry0_w2 (c : Dev nD) : V1 m ρ c main_arg5 = (m ((c : Thread nD τ).loc main_arg5)) := by
  show StableHlo.after hostOps0 (W0 m ρ c) (Proc.devRef .tc main_arg5) = _
  after_results <;> rfl

/-- The first edge bias as a one-row matrix reads, at (0, k), the bias vector at k. -/
theorem entry0_b1 (c : Dev nD) (k : Fin 128) : V1 m ρ c main_v19 (ix2 (0 : Fin 1) k) = (m ((c : Thread nD τ).loc main_arg4)) (ix1 k) := by
  have e : V1 m ρ c main_v19 = shapeCast S1x128 (m ((c : Thread nD τ).loc main_arg4)) shapeCasts_S128_S1x128 := by
    show StableHlo.after hostOps0 (W0 m ρ c) (Proc.devRef .tc main_v19) = _
    after_results <;> rfl
  exact (congrFun e _).trans (shapeCast_a_1a_apply _ _ (0 : Fin 1) k)

theorem entry0_b2 (c : Dev nD) (k : Fin 128) : V1 m ρ c main_v20 (ix2 (0 : Fin 1) k) = (m ((c : Thread nD τ).loc main_arg6)) (ix1 k) := by
  have e : V1 m ρ c main_v20 = shapeCast S1x128 (m ((c : Thread nD τ).loc main_arg6)) shapeCasts_S128_S1x128 := by
    show StableHlo.after hostOps0 (W0 m ρ c) (Proc.devRef .tc main_v20) = _
    after_results <;> rfl
  exact (congrFun e _).trans (shapeCast_a_1a_apply _ _ (0 : Fin 1) k)

/-- The edge features of what the first region finds are the reference's edge features of the kernel's arguments. -/
theorem entry0_feats (c : Dev nD) :
    EdgeBlocks.feats (V1 m ρ) c = Read.val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [Cert.RefValue.edge_eq]
  exact edgeFeat_congr (entry0_rows m ρ c) (entry0_mask m ρ c) (entry0_w1 m ρ c) (funext (entry0_b1 m ρ c)) (entry0_w2 m ρ c)
    (funext (entry0_b2 m ρ c))

/-! ## What the first region leaves -/

theorem exit0_feats (c : Dev nD) :
    W2 m ρ c (Proc.devRef .tc main_v21) = Read.val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  ((W2_arr m ρ c 6).trans (EdgeBlocks.final (V1 m ρ) Cert.EdgePayload.pay0_eq c)).trans (entry0_feats m ρ c)

/-! ## What the second region finds -/

/-- A buffer no operation of the first stretch writes and the first region does not stage an output into holds, at
    the first region's exit, what the launch put there; here the first row of the edge index, which the first stretch
    computes, is read through. -/
theorem exit0_row (c : Dev nD) : W2 m ρ c (Proc.devRef .tc main_v1) = Read.val_main_v1 (F := Ideal) (m ((c : Thread nD τ).loc main_arg1)) := by
  refine (W2_of_ne m ρ c main_v1 (by decide)).trans ?_
  show StableHlo.after hostOps0 (W0 m ρ c) (Proc.devRef .tc main_v1) = _
  after_results_simp
  rfl

theorem exit0_arg0 (c : Dev nD) : W2 m ρ c (Proc.devRef .tc main_arg0) = (m ((c : Thread nD τ).loc main_arg0)) := by
  refine (W2_of_ne m ρ c main_arg0 (by decide)).trans ?_
  show StableHlo.after hostOps0 (W0 m ρ c) (Proc.devRef .tc main_arg0) = _
  after_results <;> rfl

theorem exit0_arg7 (c : Dev nD) : W2 m ρ c (Proc.devRef .tc main_arg7) = (m ((c : Thread nD τ).loc main_arg7)) := by
  refine (W2_of_ne m ρ c main_arg7 (by decide)).trans ?_
  show StableHlo.after hostOps0 (W0 m ρ c) (Proc.devRef .tc main_arg7) = _
  after_results <;> rfl

theorem exit0_arg8 (c : Dev nD) : W2 m ρ c (Proc.devRef .tc main_arg8) = (m ((c : Thread nD τ).loc main_arg8)) := by
  refine (W2_of_ne m ρ c main_arg8 (by decide)).trans ?_
  show StableHlo.after hostOps0 (W0 m ρ c) (Proc.devRef .tc main_arg8) = _
  after_results <;> rfl

theorem exit0_arg9 (c : Dev nD) : W2 m ρ c (Proc.devRef .tc main_arg9) = (m ((c : Thread nD τ).loc main_arg9)) := by
  refine (W2_of_ne m ρ c main_arg9 (by decide)).trans ?_
  show StableHlo.after hostOps0 (W0 m ρ c) (Proc.devRef .tc main_arg9) = _
  after_results <;> rfl

theorem exit0_arg10 (c : Dev nD) : W2 m ρ c (Proc.devRef .tc main_arg10) = (m ((c : Thread nD τ).loc main_arg10)) := by
  refine (W2_of_ne m ρ c main_arg10 (by decide)).trans ?_
  show StableHlo.after hostOps0 (W0 m ρ c) (Proc.devRef .tc main_arg10) = _
  after_results <;> rfl

theorem entry1_x (c : Dev nD) : V3 m ρ c main_arg0 = (m ((c : Thread nD τ).loc main_arg0)) := by
  refine Eq.trans ?_ (exit0_arg0 m ρ c)
  show StableHlo.after hostOps1 (W2 m ρ c) (Proc.devRef .tc main_arg0) = _
  after_results <;> rfl

theorem entry1_w2 (c : Dev nD) : V3 m ρ c main_arg9 = (m ((c : Thread nD τ).loc main_arg9)) := by
  refine Eq.trans ?_ (exit0_arg9 m ρ c)
  show StableHlo.after hostOps1 (W2 m ρ c) (Proc.devRef .tc main_arg9) = _
  after_results <;> rfl

/-- The aggregate the second region finds is the reference's scatter-add stage of the kernel's arguments. -/
theorem entry1_agg (c : Dev nD) : V3 m ρ c main_v24 = Read.val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have e : V3 m ρ c main_v24
      = Host.scatterAdd scatter_S50000x128_S600000x1_S600000x128_1_0_0_1
          (broadcastInDim S50000x128 ![] bcast_S_S50000x128 (constant (F := Ideal) S_ .f32 0x00000000#32))
          (broadcastInDim S600000x1 ![0] bcast_S600000_S600000x1_0 (W2 m ρ c (Proc.devRef .tc main_v1)))
          (W2 m ρ c (Proc.devRef .tc main_v21)) := by
    show StableHlo.after hostOps1 (W2 m ρ c) (Proc.devRef .tc main_v24) = _
    after_results <;> rfl
  rw [e, exit0_row m ρ c, exit0_feats m ρ c]
  rfl

/-- The upper half of the first node weight matrix. -/
theorem entry1_wx (c : Dev nD) : V3 m ρ c main_v25 = Cert.Spec.topRows (m ((c : Thread nD τ).loc main_arg7)) := by
  have e : V3 m ρ c main_v25 = extractStridedSlice S128x128 ![0, 0] (W2 m ρ c (Proc.devRef .tc main_arg7)) slices_S256x128_S128x128_0_0 := by
    show StableHlo.after hostOps1 (W2 m ρ c) (Proc.devRef .tc main_v25) = _
    after_results <;> rfl
  rw [e, exit0_arg7 m ρ c]
  funext i
  obtain ⟨p, q, rfl⟩ : ∃ (p : Fin 128) (q : Fin 128), i = ix2 p q := ⟨i 0, i 1, eq_ix2 i⟩
  exact slice2_axis0_apply 0 _ _ p q (Fin.castAdd 128 p : Fin (128 + 128)) (by show p.val = 0 + p.val; omega)

/-- The lower half of the first node weight matrix. -/
theorem entry1_wa (c : Dev nD) : V3 m ρ c main_v26 = Cert.Spec.botRows (m ((c : Thread nD τ).loc main_arg7)) := by
  have e : V3 m ρ c main_v26 = extractStridedSlice S128x128 ![128, 0] (W2 m ρ c (Proc.devRef .tc main_arg7)) slices_S256x128_S128x128_128_0 := by
    show StableHlo.after hostOps1 (W2 m ρ c) (Proc.devRef .tc main_v26) = _
    after_results <;> rfl
  rw [e, exit0_arg7 m ρ c]
  funext i
  obtain ⟨p, q, rfl⟩ : ∃ (p : Fin 128) (q : Fin 128), i = ix2 p q := ⟨i 0, i 1, eq_ix2 i⟩
  exact slice2_axis0_apply 128 _ _ p q (Fin.natAdd 128 p : Fin (128 + 128)) (by show 128 + p.val = 128 + p.val; rfl)

theorem entry1_b1 (c : Dev nD) (k : Fin 128) : V3 m ρ c main_v27 (ix2 (0 : Fin 1) k) = (m ((c : Thread nD τ).loc main_arg8)) (ix1 k) := by
  have e : V3 m ρ c main_v27 = shapeCast S1x128 (W2 m ρ c (Proc.devRef .tc main_arg8)) shapeCasts_S128_S1x128 := by
    show StableHlo.after hostOps1 (W2 m ρ c) (Proc.devRef .tc main_v27) = _
    after_results <;> rfl
  rw [e, exit0_arg8 m ρ c]
  exact shapeCast_a_1a_apply _ _ (0 : Fin 1) k

theorem entry1_b2 (c : Dev nD) (k : Fin 128) : V3 m ρ c main_v28 (ix2 (0 : Fin 1) k) = (m ((c : Thread nD τ).loc main_arg10)) (ix1 k) := by
  have e : V3 m ρ c main_v28 = shapeCast S1x128 (W2 m ρ c (Proc.devRef .tc main_arg10)) shapeCasts_S128_S1x128 := by
    show StableHlo.after hostOps1 (W2 m ρ c) (Proc.devRef .tc main_v28) = _
    after_results <;> rfl
  rw [e, exit0_arg10 m ρ c]
  exact shapeCast_a_1a_apply _ _ (0 : Fin 1) k

/-- The second stretch does not write the edge features' array. -/
theorem entry1_feats (c : Dev nD) : V3 m ρ c main_v21 = Read.val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine Eq.trans ?_ (exit0_feats m ρ c)
  show StableHlo.after hostOps1 (W2 m ρ c) (Proc.devRef .tc main_v21) = _
  after_results <;> rfl

/-! ## The two results at the last boundary -/

/-- The node outputs' array ends at the reference's node-output stage of the kernel's arguments. -/
theorem result_node (c : Dev nD) :
    V4 m ρ c main_v29 = Read.val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  have e : V4 m ρ c main_v29 = NodeBlocks.outs (V3 m ρ) c :=
    (W4_arr m ρ c 7).trans (NodeBlocks.final (V3 m ρ) Cert.NodePayload.pay1_eq c)
  rw [e, Cert.RefValue.node_eq]
  exact nodeOut_congr (entry1_x m ρ c) (entry1_agg m ρ c) (entry1_wx m ρ c) (entry1_wa m ρ c) (funext (entry1_b1 m ρ c))
    (entry1_w2 m ρ c) (funext (entry1_b2 m ρ c))

/-- The edge features' array ends at the reference's edge-feature stage of the kernel's arguments: the second
    region does not touch it. -/
theorem result_edge (c : Dev nD) :
    V4 m ρ c main_v21 = Read.val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W4_of_ne m ρ c main_v21 (by decide)).trans (entry1_feats m ρ c)

end Cert.KernelIdeal.Value

end
-- ==== Proof.lean ====
/-
  A message-passing layer on a graph of 50000 nodes and 600000 edges, against its jnp reference, over the extended reals.

  Both programs gather the two endpoint rows of every edge, concatenate them, pass them through a two-layer perceptron
  with max(·, 0) after each layer and multiply by the edge mask (the edge features, the second result); scatter-add the
  edge features to the first endpoint's node; and pass each node's row and aggregate through a second two-layer
  perceptron, adding the node's row (the node outputs, the first result). The kernel computes the two perceptrons in
  two blocked kernel regions, 3000 edges and 5000 nodes to a block, and applies the first node layer as two products,
  with the upper and the lower half of its weight matrix, where the reference multiplies the concatenation of row and
  aggregate by the whole matrix: a sum over 256 terms against the sum of its two halves. Changes of float format are
  the identity on the extended reals, and nothing here needs the inputs to be finite: the two sides are the same sums
  regrouped.

  The frames of the two kernel programs are the generated ones; the reference's frame is its generated run with the
  results dropped. No operation was rewritten to print the idealized kernel, so there is nothing to preserve. For the
  value claim both runs end with each result at the reference's stage term of the arguments (the kernel's by
  reading its four stretches back to the launch, the reference's by its generated run), and the arguments agree.
-/
import proofs.«139535_j86620900426032_1_alg».proof.Defs
import proofs.«139535_j86620900426032_1_alg».proof.Proof.Gen.Kernel
import proofs.«139535_j86620900426032_1_alg».proof.Proof.Gen.Kernel.Skeleton
import proofs.«139535_j86620900426032_1_alg».proof.Proof.Gen.Kernel.Launch
import proofs.«139535_j86620900426032_1_alg».proof.Proof.Gen.Kernel.Points
import proofs.«139535_j86620900426032_1_alg».proof.Proof.Gen.Kernel.Frame
import proofs.«139535_j86620900426032_1_alg».proof.Proof.Gen.KernelIdeal
import proofs.«139535_j86620900426032_1_alg».proof.Proof.Gen.KernelIdeal.Skeleton
import proofs.«139535_j86620900426032_1_alg».proof.Proof.Gen.KernelIdeal.Launch
import proofs.«139535_j86620900426032_1_alg».proof.Proof.Gen.KernelIdeal.Points
import proofs.«139535_j86620900426032_1_alg».proof.Proof.Gen.KernelIdeal.Frame
import proofs.«139535_j86620900426032_1_alg».proof.Proof.Gen.ReferenceIdeal
import proofs.«139535_j86620900426032_1_alg».proof.Proof.Gen.Pre_finite_inputs
import proofs.«139535_j86620900426032_1_alg».proof.Proof.Gen.ReferenceIdeal.Run
import proofs.«139535_j86620900426032_1_alg».proof.Proof.Gen.ReferenceIdeal.Read
import proofs.«139535_j86620900426032_1_alg».proof.Proof.KernelRun
import proofs.«139535_j86620900426032_1_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end with the node outputs and the edge features at the same functions of the arguments. -/
theorem algebraic : Cert.algebraic_KernelIdeal_ReferenceIdeal := by
  intro m ρ m' ρ' _ hagree
  refine ⟨fun c => Cert.ReferenceIdeal.Read.val_main_v44 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => Cert.ReferenceIdeal.Read.val_main_v30 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Value.result_node m ρ c),
        (h c).2.1.trans (Cert.KernelIdeal.Value.result_edge m ρ c), (h c).2.2⟩)
      (Cert.KernelIdeal.Results.run_main m ρ)
  · refine (θ_run Cert.ReferenceIdeal.defs _ _).mono (fun r h c => ⟨?_, ?_, (h c).2.2⟩)
      (Cert.ReferenceIdeal.Value.run (F := Ideal) m' ρ')
    · rw [(h c).1, Cert.ReferenceIdeal.Read.val_main_v44_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]
    · rw [(h c).2.1, Cert.ReferenceIdeal.Read.val_main_v30_eq, (hagree c).1, (hagree c).2.1, (hagree c).2.2.1, (hagree c).2.2.2.1, (hagree c).2.2.2.2.1, (hagree c).2.2.2.2.2.1, (hagree c).2.2.2.2.2.2.1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
